-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S4x100000 : Shape := ⟨2, ![4, 100000]⟩
abbrev S4x128x128 : Shape := ⟨3, ![4, 128, 128]⟩
abbrev S128 : Shape := ⟨1, ![128]⟩
abbrev S1600000 : Shape := ⟨1, ![1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S4x100000 : S_.BroadcastsInDim S4x100000 (![] : Fin 0 → Fin S4x100000.rank)
  reducesTo_S4x100000_S_d0_1 : S4x100000.ReducesTo [0, 1] S_
  bcast_S_S4x128x128 : S_.BroadcastsInDim S4x128x128 (![] : Fin 0 → Fin S4x128x128.rank)
  reducesTo_S4x128x128_S_d0_1_2 : S4x128x128.ReducesTo [0, 1, 2] S_
  bcast_S_S128 : S_.BroadcastsInDim S128 (![] : Fin 0 → Fin S128.rank)
  reducesTo_S128_S_d0 : S128.ReducesTo [0] S_
  bcast_S_S1600000 : S_.BroadcastsInDim S1600000 (![] : Fin 0 → Fin S1600000.rank)
  reducesTo_S1600000_S_d0 : S1600000.ReducesTo [0] S_

variable [Facts]

def fn_part1 {F : FTy → Type} [FloatOps F] (main_arg4 : FVec F S1600000 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S1600000 .f32 := Host.absf main_arg4
  let main_cst_6 : FVec F S_ .f32 := constant S_ .f32 0x7F800000#32
  let main_v20 : FVec F S1600000 .f32 := broadcastInDim S1600000 ![] bcast_S_S1600000 main_cst_6
  let main_v21 : IVec S1600000 1 := cmpf .olt main_v19 main_v20
  let main_c_7 : IVec S_ 1 := constantI S_ 1 1#1
  let main_v22 : IVec S_ 1 := (fun x v => Host.reduce IntOp.andi x v reducesTo_S1600000_S_d0 h_S_) main_v21 main_c_7
  let main_v23 : IVec S_ 1 := andi main_v18 main_v22
  main_v23

def fn {F : FTy → Type} [FloatOps F] (main_arg0 : FVec F S100000x128 .f32) (main_arg1 : FVec F S4x100000 .f32) (main_arg2 : FVec F S4x128x128 .f32) (main_arg3 : FVec F S128 .f32) (main_arg4 : FVec F S1600000 .f32) (main_arg5 : IVec S1600000 32) (main_arg6 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S4x100000 .f32 := Host.absf main_arg1
  let main_cst_0 : FVec F S_ .f32 := constant S_ .f32 0x7F800000#32
  let main_v5 : FVec F S4x100000 .f32 := broadcastInDim S4x100000 ![] bcast_S_S4x100000 main_cst_0
  let main_v6 : IVec S4x100000 1 := cmpf .olt main_v4 main_v5
  let main_c_1 : IVec S_ 1 := constantI S_ 1 1#1
  let main_v7 : IVec S_ 1 := (fun x v => Host.reduce IntOp.andi x v reducesTo_S4x100000_S_d0_1 h_S_) main_v6 main_c_1
  let main_v8 : IVec S_ 1 := andi main_v3 main_v7
  let main_v9 : FVec F S4x128x128 .f32 := Host.absf main_arg2
  let main_cst_2 : FVec F S_ .f32 := constant S_ .f32 0x7F800000#32
  let main_v10 : FVec F S4x128x128 .f32 := broadcastInDim S4x128x128 ![] bcast_S_S4x128x128 main_cst_2
  let main_v11 : IVec S4x128x128 1 := cmpf .olt main_v9 main_v10
  let main_c_3 : IVec S_ 1 := constantI S_ 1 1#1
  let main_v12 : IVec S_ 1 := (fun x v => Host.reduce IntOp.andi x v reducesTo_S4x128x128_S_d0_1_2 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_v13 main_v16
-- ==== Kernel.lean ====
abbrev S100000x128 : Shape := ⟨2, ![100000, 128]⟩
abbrev S4x100000 : Shape := ⟨2, ![4, 100000]⟩
abbrev S4x128x128 : Shape := ⟨3, ![4, 128, 128]⟩
abbrev S128 : Shape := ⟨1, ![128]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x100000 : Shape := ⟨2, ![1, 100000]⟩
abbrev S100000 : Shape := ⟨1, ![100000]⟩
abbrev S100000x1 : Shape := ⟨2, ![100000, 1]⟩
abbrev S5000x128 : Shape := ⟨2, ![5000, 128]⟩
abbrev S5000x1 : Shape := ⟨2, ![5000, 1]⟩
abbrev S1x128x128 : Shape := ⟨3, ![1, 128, 128]⟩
abbrev S128x128 : Shape := ⟨2, ![128, 128]⟩
abbrev S1x128 : Shape := ⟨2, ![1, 128]⟩

abbrev nBuf : Space → Nat
  | .hbm => 76
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S4x100000, .f32⟩
  | .hbm, ⟨2, _⟩ => ⟨S4x128x128, .f32⟩
  | .hbm, ⟨3, _⟩ => ⟨S128, .f32⟩
  | .hbm, ⟨4, _⟩ => ⟨S1600000, .f32⟩
  | .hbm, ⟨5, _⟩ => ⟨S1600000, .i32⟩
  | .hbm, ⟨6, _⟩ => ⟨S1600000, .i32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x128, .f32⟩
  | .hbm, ⟨16, _⟩ => ⟨S1600000x1, .f32⟩
  | .hbm, ⟨17, _⟩ => ⟨S1600000x128, .f32⟩
  | .hbm, ⟨18, _⟩ => ⟨S1600000x128, .f32⟩
  | .hbm, ⟨19, _⟩ => ⟨S_, .f32⟩
  | .hbm, ⟨20, _⟩ => ⟨S100000x128, .f32⟩
  | .hbm, ⟨21, _⟩ => ⟨S1600000x1, .i32⟩
  | .hbm, ⟨22, _⟩ => ⟨S100000x128, .f32⟩
  | .hbm, ⟨23, _⟩ => ⟨S_, .i32⟩
  | .hbm, ⟨24, _⟩ => ⟨S1600000, .i32⟩
  | .hbm, ⟨25, _⟩ => ⟨S1600000, .i1⟩
  | .hbm, ⟨26, _⟩ => ⟨S_, .i32⟩
  | .hbm, ⟨27, _⟩ => ⟨S1600000, .i32⟩
  | .hbm, ⟨28, _⟩ => ⟨S1600000, .i32⟩
  | .hbm, ⟨29, _⟩ => ⟨S1600000, .i32⟩
  | .hbm, ⟨30, _⟩ => ⟨S1600000x1, .i32⟩
  | .hbm, ⟨31, _⟩ => ⟨S1600000x128, .f32⟩
  | .hbm, ⟨32, _⟩ => ⟨S1600000x1, .f32⟩
  | .hbm, ⟨33, _⟩ => ⟨S1600000x128, .f32⟩
  | .hbm, ⟨34, _⟩ => ⟨S1600000x128, .f32⟩
  | .hbm, ⟨35, _⟩ => ⟨S_, .f32⟩
  | .hbm, ⟨36, _⟩ => ⟨S100000x128, .f32⟩
  | .hbm, ⟨37, _⟩ => ⟨S1600000x1, .i32⟩
  | .hbm, ⟨38, _⟩ => ⟨S100000x128, .f32⟩
  | .hbm, ⟨39, _⟩ => ⟨S_, .f32⟩
  | .hbm, ⟨40, _⟩ => ⟨S100000x128, .f32⟩
  | .hbm, ⟨41, _⟩ => ⟨S100000x128, .f32⟩
  | .hbm, ⟨42, _⟩ => ⟨S100000x128, .f32⟩
  | .hbm, ⟨43, _⟩ => ⟨S_, .i32⟩
  | .hbm, ⟨44, _⟩ => ⟨S1600000, .i32⟩
  | .hbm, ⟨45, _⟩ => ⟨S1600000, .i1⟩
  | .hbm, ⟨46, _⟩ => ⟨S_, .i32⟩
  | .hbm, ⟨47, _⟩ => ⟨S1600000, .i32⟩
  | .hbm, ⟨48, _⟩ => ⟨S1600000, .i32⟩
  | .hbm, ⟨49, _⟩ => ⟨S1600000, .i32⟩
  | .hbm, ⟨50, _⟩ => ⟨S1600000x1, .i32⟩
  | .hbm, ⟨51, _⟩ => ⟨S1600000x128, .f32⟩
  | .hbm, ⟨52, _⟩ => ⟨S1600000x1, .f32⟩
  | .hbm, ⟨53, _⟩ => ⟨S1600000x128, .f32⟩
  | .hbm, ⟨54, _⟩ => ⟨S1600000x128, .f32⟩
  | .hbm, ⟨55, _⟩ => ⟨S_, .f32⟩
  | .hbm, ⟨56, _⟩ => ⟨S100000x128, .f32⟩
  | .hbm, ⟨57, _⟩ => ⟨S1600000x1, .i32⟩
  | .hbm, ⟨58, _⟩ => ⟨S100000x128, .f32⟩
  | .hbm, ⟨59, _⟩ => ⟨S_, .f32⟩
  | .hbm, ⟨60, _⟩ => ⟨S100000x128, .f32⟩
  | .hbm, ⟨61, _⟩ => ⟨S100000x128, .f32⟩
  | .hbm, ⟨62, _⟩ => ⟨S100000x128, .f32⟩
  | .hbm, ⟨63, _⟩ => ⟨S1x100000, .f32⟩
  | .hbm, ⟨64, _⟩ => ⟨S100000, .f32⟩
  | .hbm, ⟨65, _⟩ => ⟨S100000x1, .f32⟩
  | .hbm, ⟨66, _⟩ => ⟨S1x100000, .f32⟩
  | .hbm, ⟨67, _⟩ => ⟨S100000, .f32⟩
  | .hbm, ⟨68, _⟩ => ⟨S100000x1, .f32⟩
  | .hbm, ⟨69, _⟩ => ⟨S1x100000, .f32⟩
  | .hbm, ⟨70, _⟩ => ⟨S100000, .f32⟩
  | .hbm, ⟨71, _⟩ => ⟨S100000x1, .f32⟩
  | .hbm, ⟨72, _⟩ => ⟨S1x100000, .f32⟩
  | .hbm, ⟨73, _⟩ => ⟨S100000, .f32⟩
  | .hbm, ⟨74, _⟩ => ⟨S100000x1, .f32⟩
  | .hbm, ⟨75, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x1, .f32⟩
  | .local _ .vmem, ⟨9, _⟩ => ⟨S5000x1, .f32⟩
  | .local _ .vmem, ⟨10, _⟩ => ⟨S5000x1, .f32⟩
  | .local _ .vmem, ⟨11, _⟩ => ⟨S5000x1, .f32⟩
  | .local _ .vmem, ⟨12, _⟩ => ⟨S5000x1, .f32⟩
  | .local _ .vmem, ⟨13, _⟩ => ⟨S5000x1, .f32⟩
  | .local _ .vmem, ⟨14, _⟩ => ⟨S5000x1, .f32⟩
  | .local _ .vmem, ⟨15, _⟩ => ⟨S5000x1, .f32⟩
  | .local _ .vmem, ⟨16, _⟩ => ⟨S4x128x128, .f32⟩
  | .local _ .vmem, ⟨17, _⟩ => ⟨S128, .f32⟩
  | .local _ .vmem, ⟨18, _⟩ => ⟨S5000x128, .f32⟩
  | .local _ .vmem, ⟨19, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c_1 : Ref sig .tc := ⟨.hbm, 23, rfl⟩
abbrev main_v13 : Ref sig .tc := ⟨.hbm, 24, rfl⟩
abbrev main_v14 : Ref sig .tc := ⟨.hbm, 25, rfl⟩
abbrev main_c_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_5 : Ref sig .tc := ⟨.hbm, 43, rfl⟩
abbrev main_v29 : Ref sig .tc := ⟨.hbm, 44, rfl⟩
abbrev main_v30 : Ref sig .tc := ⟨.hbm, 45, rfl⟩
abbrev main_c_6 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_7 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_8 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S5000x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S5000x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S5000x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S4x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S5000x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  slices_S4x100000_S1x100000_0_0 : S4x100000.Slices ![0, 0] S1x100000
  shapeCasts_S1x100000_S100000 : S1x100000.ShapeCasts S100000
  shapeCasts_S100000_S100000x1 : S100000.ShapeCasts S100000x1
  slices_S4x100000_S1x100000_1_0 : S4x100000.Slices ![1, 0] S1x100000
  slices_S4x100000_S1x100000_2_0 : S4x100000.Slices ![2, 0] S1x100000
  slices_S4x100000_S1x100000_3_0 : S4x100000.Slices ![3, 0] S1x100000
  inb_S5000x128_S5000x128_0_0 : ∀ a, (![0, 0] : Fin 2 → Nat) a + S5000x128.size a ≤ S5000x128.size a
  h_S5000x128 : 0 < S5000x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S4x128x128_S1x128x128_0_0_0 : ∀ a, (![0, 0, 0] : Fin 3 → Nat) a + S1x128x128.size a ≤ S4x128x128.size a
  h_S1x128x128 : 0 < S1x128x128.numel
  shapeCasts_S1x128x128_S128x128 : S1x128x128.ShapeCasts S128x128
  shapeCasts_S5000x128_S5000x128 : S5000x128.ShapeCasts S5000x128
  inb_S4x128x128_S1x128x128_1_0_0 : ∀ a, (![1, 0, 0] : Fin 3 → Nat) a + S1x128x128.size a ≤ S4x128x128.size a
  inb_S4x128x128_S1x128x128_2_0_0 : ∀ a, (![2, 0, 0] : Fin 3 → Nat) a + S1x128x128.size a ≤ S4x128x128.size a
  inb_S4x128x128_S1x128x128_3_0_0 : ∀ a, (![3, 0, 0] : Fin 3 → Nat) a + S1x128x128.size a ≤ S4x128x128.size a
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x1.size a ≤ S100000x1.size a
  hwx0_4 : ∀ i : grid0.Coords, EltTy.bits .f32 = 32 ∨ (Rect.block (s := S100000x1) S5000x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x1.size a ≤ S100000x1.size a
  hwx0_5 : ∀ i : grid0.Coords, EltTy.bits .f32 = 32 ∨ (Rect.block (s := S100000x1) S5000x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x1.size a ≤ S100000x1.size a
  hwx0_6 : ∀ i : grid0.Coords, EltTy.bits .f32 = 32 ∨ (Rect.block (s := S100000x1) S5000x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x1.size a ≤ S100000x1.size a
  hwx0_7 : ∀ i : grid0.Coords, EltTy.bits .f32 = 32 ∨ (Rect.block (s := S100000x1) S5000x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S4x128x128.size a ≤ S4x128x128.size a
  hwx0_8 : ∀ i : grid0.Coords, EltTy.bits .f32 = 32 ∨ (Rect.block (s := S4x128x128) S4x128x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128.size a ≤ S128.size a
  hwx0_9 : ∀ i : grid0.Coords, EltTy.bits .f32 = 32 ∨ (Rect.block (s := S128) S128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S5000x128.size a ≤ S100000x128.size a
  hwx0_10 : ∀ i : grid0.Coords, EltTy.bits .f32 = 32 ∨ (Rect.block (s := S100000x128) S5000x128.size (cc0_transform_10 i) (hinb0_10 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v28) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v44) S5000x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v47) S5000x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v50) S5000x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v53) S5000x1.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v56) S5000x1.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_arg2) S4x128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg3) S128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v57) S5000x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S100000x128 : Shape := ⟨2, ![100000, 128]⟩
abbrev S4x100000 : Shape := ⟨2, ![4, 100000]⟩
abbrev S4x128x128 : Shape := ⟨3, ![4, 128, 128]⟩
abbrev S128 : Shape := ⟨1, ![128]⟩
abbrev S1600000 : Shape := ⟨1, ![1600000]⟩
abbrev S1x100000 : Shape := ⟨2, ![1, 100000]⟩
abbrev S100000 : Shape := ⟨1, ![100000]⟩
abbrev S100000x1 : Shape := ⟨2, ![100000, 1]⟩
abbrev S1x128x128 : Shape := ⟨3, ![1, 128, 128]⟩
abbrev S128x128 : Shape := ⟨2, ![128, 128]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩

abbrev nBuf : Space → Nat
  | .hbm => 101
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S4x100000, .f32⟩
  | .hbm, ⟨2, _⟩ => ⟨S4x128x128, .f32⟩
  | .hbm, ⟨3, _⟩ => ⟨S128, .f32⟩
  | .hbm, ⟨4, _⟩ => ⟨S1600000, .f32⟩
  | .hbm, ⟨5, _⟩ => ⟨S1600000, .i32⟩
  | .hbm, ⟨6, _⟩ => ⟨S1600000, .i32⟩
  | .hbm, ⟨7, _⟩ => ⟨S1x100000, .f32⟩
  | .hbm, ⟨8, _⟩ => ⟨S100000, .f32⟩
  | .hbm, ⟨9, _⟩ => ⟨S100000x1, .f32⟩
  | .hbm, ⟨10, _⟩ => ⟨S100000x128, .f32⟩
  | .hbm, ⟨11, _⟩ => ⟨S100000x128, .f32⟩
  | .hbm, ⟨12, _⟩ => ⟨S1x128x128, .f32⟩
  | .hbm, ⟨13, _⟩ => ⟨S128x128, .f32⟩
  | .hbm, ⟨14, _⟩ => ⟨S100000x128, .f32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000x128, .f32⟩
  | .hbm, ⟨24, _⟩ => ⟨S1600000x1, .f32⟩
  | .hbm, ⟨25, _⟩ => ⟨S1600000x128, .f32⟩
  | .hbm, ⟨26, _⟩ => ⟨S1600000x128, .f32⟩
  | .hbm, ⟨27, _⟩ => ⟨S_, .f32⟩
  | .hbm, ⟨28, _⟩ => ⟨S100000x128, .f32⟩
  | .hbm, ⟨29, _⟩ => ⟨S1600000x1, .i32⟩
  | .hbm, ⟨30, _⟩ => ⟨S100000x128, .f32⟩
  | .hbm, ⟨31, _⟩ => ⟨S1x100000, .f32⟩
  | .hbm, ⟨32, _⟩ => ⟨S100000, .f32⟩
  | .hbm, ⟨33, _⟩ => ⟨S100000x1, .f32⟩
  | .hbm, ⟨34, _⟩ => ⟨S100000x128, .f32⟩
  | .hbm, ⟨35, _⟩ => ⟨S100000x128, .f32⟩
  | .hbm, ⟨36, _⟩ => ⟨S1x128x128, .f32⟩
  | .hbm, ⟨37, _⟩ => ⟨S128x128, .f32⟩
  | .hbm, ⟨38, _⟩ => ⟨S100000x128, .f32⟩
  | .hbm, ⟨39, _⟩ => ⟨S100000x128, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000x128, .f32⟩
  | .hbm, ⟨49, _⟩ => ⟨S1600000x1, .f32⟩
  | .hbm, ⟨50, _⟩ => ⟨S1600000x128, .f32⟩
  | .hbm, ⟨51, _⟩ => ⟨S1600000x128, .f32⟩
  | .hbm, ⟨52, _⟩ => ⟨S_, .f32⟩
  | .hbm, ⟨53, _⟩ => ⟨S100000x128, .f32⟩
  | .hbm, ⟨54, _⟩ => ⟨S1600000x1, .i32⟩
  | .hbm, ⟨55, _⟩ => ⟨S100000x128, .f32⟩
  | .hbm, ⟨56, _⟩ => ⟨S_, .f32⟩
  | .hbm, ⟨57, _⟩ => ⟨S100000x128, .f32⟩
  | .hbm, ⟨58, _⟩ => ⟨S100000x128, .f32⟩
  | .hbm, ⟨59, _⟩ => ⟨S100000x128, .f32⟩
  | .hbm, ⟨60, _⟩ => ⟨S1x100000, .f32⟩
  | .hbm, ⟨61, _⟩ => ⟨S100000, .f32⟩
  | .hbm, ⟨62, _⟩ => ⟨S100000x1, .f32⟩
  | .hbm, ⟨63, _⟩ => ⟨S100000x128, .f32⟩
  | .hbm, ⟨64, _⟩ => ⟨S100000x128, .f32⟩
  | .hbm, ⟨65, _⟩ => ⟨S1x128x128, .f32⟩
  | .hbm, ⟨66, _⟩ => ⟨S128x128, .f32⟩
  | .hbm, ⟨67, _⟩ => ⟨S100000x128, .f32⟩
  | .hbm, ⟨68, _⟩ => ⟨S100000x128, .f32⟩
  | .hbm, ⟨69, _⟩ => ⟨S_, .i32⟩
  | .hbm, ⟨70, _⟩ => ⟨S1600000, .i32⟩
  | .hbm, ⟨71, _⟩ => ⟨S1600000, .i1⟩
  | .hbm, ⟨72, _⟩ => ⟨S_, .i32⟩
  | .hbm, ⟨73, _⟩ => ⟨S1600000, .i32⟩
  | .hbm, ⟨74, _⟩ => ⟨S1600000, .i32⟩
  | .hbm, ⟨75, _⟩ => ⟨S1600000, .i32⟩
  | .hbm, ⟨76, _⟩ => ⟨S1600000x1, .i32⟩
  | .hbm, ⟨77, _⟩ => ⟨S1600000x128, .f32⟩
  | .hbm, ⟨78, _⟩ => ⟨S1600000x1, .f32⟩
  | .hbm, ⟨79, _⟩ => ⟨S1600000x128, .f32⟩
  | .hbm, ⟨80, _⟩ => ⟨S1600000x128, .f32⟩
  | .hbm, ⟨81, _⟩ => ⟨S_, .f32⟩
  | .hbm, ⟨82, _⟩ => ⟨S100000x128, .f32⟩
  | .hbm, ⟨83, _⟩ => ⟨S1600000x1, .i32⟩
  | .hbm, ⟨84, _⟩ => ⟨S100000x128, .f32⟩
  | .hbm, ⟨85, _⟩ => ⟨S_, .f32⟩
  | .hbm, ⟨86, _⟩ => ⟨S100000x128, .f32⟩
  | .hbm, ⟨87, _⟩ => ⟨S100000x128, .f32⟩
  | .hbm, ⟨88, _⟩ => ⟨S100000x128, .f32⟩
  | .hbm, ⟨89, _⟩ => ⟨S1x100000, .f32⟩
  | .hbm, ⟨90, _⟩ => ⟨S100000, .f32⟩
  | .hbm, ⟨91, _⟩ => ⟨S100000x1, .f32⟩
  | .hbm, ⟨92, _⟩ => ⟨S100000x128, .f32⟩
  | .hbm, ⟨93, _⟩ => ⟨S100000x128, .f32⟩
  | .hbm, ⟨94, _⟩ => ⟨S1x128x128, .f32⟩
  | .hbm, ⟨95, _⟩ => ⟨S128x128, .f32⟩
  | .hbm, ⟨96, _⟩ => ⟨S100000x128, .f32⟩
  | .hbm, ⟨97, _⟩ => ⟨S100000x128, .f32⟩
  | .hbm, ⟨98, _⟩ => ⟨S1x128, .f32⟩
  | .hbm, ⟨99, _⟩ => ⟨S100000x128, .f32⟩
  | .hbm, ⟨100, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_c_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_c_1 : Ref sig .tc := ⟨.hbm, 40, rfl⟩
abbrev main_v30 : Ref sig .tc := ⟨.hbm, 41, rfl⟩
abbrev main_v31 : Ref sig .tc := ⟨.hbm, 42, rfl⟩
abbrev main_c_2 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_3 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_4 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_c_5 : Ref sig .tc := ⟨.hbm, 69, rfl⟩
abbrev main_v55 : Ref sig .tc := ⟨.hbm, 70, rfl⟩
abbrev main_v56 : Ref sig .tc := ⟨.hbm, 71, rfl⟩
abbrev main_c_6 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_cst_7 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_cst_8 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩

abbrev nD : Nat := 1
abbrev τ : Topo := Topo.v7x

variable {F : FTy → Type} [FloatOps F]

class Facts₀ : Prop where
  slices_S4x100000_S1x100000_0_0 : S4x100000.Slices ![0, 0] S1x100000
  shapeCasts_S1x100000_S100000 : S1x100000.ShapeCasts S100000
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  slices_S4x128x128_S1x128x128_0_0_0 : S4x128x128.Slices ![0, 0, 0] S1x128x128
  shapeCasts_S1x128x128_S128x128 : S1x128x128.ShapeCasts S128x128
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  slices_S4x100000_S1x100000_1_0 : S4x100000.Slices ![1, 0] S1x100000
  slices_S4x128x128_S1x128x128_1_0_0 : S4x128x128.Slices ![1, 0, 0] S1x128x128
  slices_S4x100000_S1x100000_2_0 : S4x100000.Slices ![2, 0] S1x100000
  slices_S4x128x128_S1x128x128_2_0_0 : S4x128x128.Slices ![2, 0, 0] S1x128x128
  slices_S4x100000_S1x100000_3_0 : S4x100000.Slices ![3, 0] S1x100000
  slices_S4x128x128_S1x128x128_3_0_0 : S4x128x128.Slices ![3, 0, 0] S1x128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.LibDot.lean ====
/-
  Matrix products with ONE contracted axis and no batch axis, read at an entry at the ideal values, for any dimension
  numbers record whose axis lists are the stated ones (a printed record satisfies each hypothesis by `rfl`).

  With the accumulator the zero constant, the product at entry (a, b) is the sum over the contracted coordinate `c` of
  the left operand's entry times the right operand's entry; which coordinate of each operand `c` runs over is what the
  three forms below differ in: rows by columns (`_10`), the left operand transposed against a right operand contracted
  on its last axis (`_01`), and both operands contracted on their first axis (`_00`).
  Also: a non-contracting axis of either operand reads the output index, and the bf16 zero pattern is the real zero.
-/
import Idealize.ShloMosaic.Lib.ValueIdx
import Idealize.ShloMosaic.PureOps.Ideal.Laws

noncomputable section

open scoped BigOperators

namespace Cert.LibDot

open Idealize.ShloMosaic Idealize.ShloMosaic.ValueIdx

/-- The bf16 pattern of all zero bits is the number zero. -/
theorem ofBits_zero_bf16 : Ideal.ofBits .bf16 0x0000#16 = 0 := by simp [Ideal.ofBits, Ideal.ieee]

section Axes
variable {sl sr so : Shape} (d : DotDims sl sr so)

/-- With no batch axis and one non-contracting axis on the left, that axis of the left operand reads the output's
    first coordinate. -/
theorem lhsIdx_val_non {nl : Fin sl.rank} (hb : d.lhsBatch = []) (hn : d.lhsNonContracting = [nl]) (j : so.Idx)
    (k : d.contr.Idx) (h0 : 0 < so.rank) : (d.lhsIdx j k nl).val = (j ⟨0, h0⟩).val := by
  have hnb : nl ∉ d.lhsBatch := by rw [hb]; exact List.not_mem_nil
  have hmem : nl ∈ d.lhsNonContracting := by rw [hn]; exact List.mem_singleton.mpr rfl
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- With no batch axis and one non-contracting axis on each side, the right operand's non-contracting axis reads the
    output's second coordinate. -/
theorem rhsIdx_val_non {nl : Fin sl.rank} {nr : Fin sr.rank} (hlb : d.lhsBatch = []) (hrb : d.rhsBatch = [])
    (hln : d.lhsNonContracting = [nl]) (hn : d.rhsNonContracting = [nr]) (j : so.Idx)
    (k : d.contr.Idx) (h1 : 1 < so.rank) : (d.rhsIdx j k nr).val = (j ⟨1, h1⟩).val := by
  have hnb : nr ∉ d.rhsBatch := by rw [hrb]; exact List.not_mem_nil
  have hmem : nr ∈ d.rhsNonContracting := by rw [hn]; exact List.mem_singleton.mpr rfl
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hlb, hln, hn])

end Axes

/-- Rows by columns: an `M × K` by a `K × N` operand, the left contracted on its last axis and the right on its
    first. -/
theorem matmul_10_zero_apply {M K N : Nat} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![M, K]⟩ φ₁) (B : FVec Ideal ⟨2, ![K, N]⟩ φ₂)
    (a : Fin M) (b : Fin N) :
    matmul (F := Ideal) d prec A B (constant ⟨2, ![M, N]⟩ .f32 0x00000000#32) (ix2 a b)
      = ∑ c : Fin K, A (ix2 a c) * B (ix2 c b) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l0 := lhsIdx_val_non d hlb hln (ix2 a b) ((contrEquiv1 d K hr hs).symm c) Nat.zero_lt_two
  have l1 := (d.lhsIdx_val_of_single hlc (ix2 a b) ((contrEquiv1 d K hr hs).symm c)).trans c2
  have r0 := (d.rhsIdx_val_of_single hrc (ix2 a b) ((contrEquiv1 d K hr hs).symm c)).trans c2
  have r1 := rhsIdx_val_non d hlb hrb hln hrn (ix2 a b) ((contrEquiv1 d K hr hs).symm c) Nat.one_lt_two
  have l2 : d.lhsIdx (ix2 a b) ((contrEquiv1 d K hr hs).symm c) = ix2 a c := by
    funext ax; apply Fin.ext
    match ax with
    | ⟨0, _⟩ => exact l0
    | ⟨1, _⟩ => exact l1
  have r2 : d.rhsIdx (ix2 a b) ((contrEquiv1 d K hr hs).symm c) = ix2 c b := by
    funext ax; apply Fin.ext
    match ax with
    | ⟨0, _⟩ => exact r0
    | ⟨1, _⟩ => exact r1
  rw [l2, r2]

/-- A `K × M` left operand contracted on its first axis against an `N × K` right operand contracted on its last. -/
theorem matmul_01_zero_apply {M K N : Nat} {φ₁ φ₂ : FTy} (d : DotDims ⟨2, ![K, M]⟩ ⟨2, ![N, K]⟩ ⟨2, ![M, N]⟩)
    (hlc : d.lhsContracting = [0]) (hrc : d.rhsContracting = [1]) (hln : d.lhsNonContracting = [1])
    (hrn : d.rhsNonContracting = [0]) (hlb : d.lhsBatch = []) (hrb : d.rhsBatch = [])
    (prec : Option ContractPrecision) (A : FVec Ideal ⟨2, ![K, M]⟩ φ₁) (B : FVec Ideal ⟨2, ![N, K]⟩ φ₂)
    (a : Fin M) (b : Fin N) :
    matmul (F := Ideal) d prec A B (constant ⟨2, ![M, N]⟩ .f32 0x00000000#32) (ix2 a b)
      = ∑ c : Fin K, A (ix2 c a) * B (ix2 b c) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l1 := lhsIdx_val_non d hlb hln (ix2 a b) ((contrEquiv1 d K hr hs).symm c) Nat.zero_lt_two
  have l0 := (d.lhsIdx_val_of_single hlc (ix2 a b) ((contrEquiv1 d K hr hs).symm c)).trans c2
  have r1 := (d.rhsIdx_val_of_single hrc (ix2 a b) ((contrEquiv1 d K hr hs).symm c)).trans c2
  have r0 := rhsIdx_val_non d hlb hrb hln hrn (ix2 a b) ((contrEquiv1 d K hr hs).symm c) Nat.one_lt_two
  have l2 : d.lhsIdx (ix2 a b) ((contrEquiv1 d K hr hs).symm c) = ix2 c a := by
    funext ax; apply Fin.ext
    match ax with
    | ⟨0, _⟩ => exact l0
    | ⟨1, _⟩ => exact l1
  have r2 : d.rhsIdx (ix2 a b) ((contrEquiv1 d K hr hs).symm c) = ix2 b c := by
    funext ax; apply Fin.ext
    match ax with
    | ⟨0, _⟩ => exact r0
    | ⟨1, _⟩ => exact r1
  rw [l2, r2]

/-- Both operands contracted on their first axis: a `K × M` by a `K × N` operand. -/
theorem matmul_00_zero_apply {M K N : Nat} {φ₁ φ₂ : FTy} (d : DotDims ⟨2, ![K, M]⟩ ⟨2, ![K, N]⟩ ⟨2, ![M, N]⟩)
    (hlc : d.lhsContracting = [0]) (hrc : d.rhsContracting = [0]) (hln : d.lhsNonContracting = [1])
    (hrn : d.rhsNonContracting = [1]) (hlb : d.lhsBatch = []) (hrb : d.rhsBatch = [])
    (prec : Option ContractPrecision) (A : FVec Ideal ⟨2, ![K, M]⟩ φ₁) (B : FVec Ideal ⟨2, ![K, N]⟩ φ₂)
    (a : Fin M) (b : Fin N) :
    matmul (F := Ideal) d prec A B (constant ⟨2, ![M, N]⟩ .f32 0x00000000#32) (ix2 a b)
      = ∑ c : Fin K, A (ix2 c a) * B (ix2 c b) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l1 := lhsIdx_val_non d hlb hln (ix2 a b) ((contrEquiv1 d K hr hs).symm c) Nat.zero_lt_two
  have l0 := (d.lhsIdx_val_of_single hlc (ix2 a b) ((contrEquiv1 d K hr hs).symm c)).trans c2
  have r0 := (d.rhsIdx_val_of_single hrc (ix2 a b) ((contrEquiv1 d K hr hs).symm c)).trans c2
  have r1 := rhsIdx_val_non d hlb hrb hln hrn (ix2 a b) ((contrEquiv1 d K hr hs).symm c) Nat.one_lt_two
  have l2 : d.lhsIdx (ix2 a b) ((contrEquiv1 d K hr hs).symm c) = ix2 c a := by
    funext ax; apply Fin.ext
    match ax with
    | ⟨0, _⟩ => exact l0
    | ⟨1, _⟩ => exact l1
  have r2 : d.rhsIdx (ix2 a b) ((contrEquiv1 d K hr hs).symm c) = ix2 c b := by
    funext ax; apply Fin.ext
    match ax with
    | ⟨0, _⟩ => exact r0
    | ⟨1, _⟩ => exact r1
  rw [l2, r2]

end Cert.LibDot

end
-- ==== Proof.Payload.lean ====
/-
  What the kernel body stores at one entry of its 5000 x 128 output block, at the ideal values, as a function of the
  blocks it loaded: four row blocks of node features, four columns of coefficients, four weight matrices (each loaded
  as a 1 x 128 x 128 slab) and the bias row.

  Each of the four products has the zero accumulator, so its entry (p, q) is the sum over the contracted feature `j` of
  the scaled entry (x[p, j] * f[p, 0]) times w[0, j, q]; the change of format before the product is the identity at the
  ideal values, the coefficient column is spread along the features and the bias row along the rows.
-/
import proofs.«134779_j17703855194471_1_alg».proof.Proof.Gen.KernelIdeal.Skeleton
import proofs.«134779_j17703855194471_1_alg».proof.Proof.LibDot
import Idealize.ShloMosaic.Lib.Pipeline.Value
import Idealize.ShloMosaic.Lib.ValueIdx

noncomputable section

open scoped BigOperators

namespace Cert.Cheb.Payload

open Cert.KernelIdeal Cert.KernelIdeal.Gen Idealize.ShloMosaic Idealize.ShloMosaic.ValueIdx

/-- A row block scaled by its coefficient column, after the change of format: entry (p, j) is x[p, j] * f[p, 0]. -/
theorem scaled_apply (x : Vec Ideal S5000x128 .f32) (f : Vec Ideal S5000x1 .f32) (h2 : S5000x1.Broadcasts S5000x128)
    (h3 : FTy.bits .bf16 < FTy.bits .f32) (p : Fin 5000) (j : Fin 128) :
    (truncf .bf16 (mulf x (broadcastTo S5000x128 f h2)) h3 : FVec Ideal S5000x128 .bf16) (ix2 p j)
      = x (ix2 p j) * f (ix2 p 0) := by
  show x (ix2 p j) * broadcastTo S5000x128 f h2 (ix2 p j) = _
  rw [broadcastTo_apply f h2 (ix2 p j) (ix2 p 0) (fun a => by
    match a with
    | ⟨0, _⟩ => show p.val = if (5000 : Nat) = 1 then 0 else p.val; rw [if_neg (by decide)]
    | ⟨1, _⟩ => show (0 : Fin 1).val = if (1 : Nat) = 1 then 0 else j.val; rw [if_pos rfl]; rfl)]

/-- A weight slab read as a matrix, after the change of format: entry (j, q) is w[0, j, q]. -/
theorem slab_apply (w : Vec Ideal S1x128x128 .f32) (h4 : S1x128x128.ShapeCasts S128x128)
    (h3 : FTy.bits .bf16 < FTy.bits .f32) (j q : Fin 128) :
    (truncf .bf16 (shapeCast S128x128 w h4) h3 : FVec Ideal S128x128 .bf16) (ix2 j q) = w (ix3 0 j q) := by
  show shapeCast S128x128 w h4 (ix2 j q) = _
  refine shapeCast_apply w h4 (ix2 j q) (ix3 0 j q) ?_
  rw [Shape.rowMajor_val_three, Shape.rowMajor_val_two]
  show (0 * 128 + j.val) * 128 + q.val = j.val * 128 + q.val
  omega

/-- The bias row spread along the rows: entry (p, q) is b[q]. -/
theorem bias_apply (b : Vec Ideal S128 .f32) (h5 : S128.ShapeCasts S1x128) (h6 : S1x128.Broadcasts S5000x128)
    (p : Fin 5000) (q : Fin 128) :
    broadcastTo S5000x128 (shapeCast S1x128 b h5) h6 (ix2 p q) = b (ix1 q) := by
  rw [broadcastTo_apply (shapeCast S1x128 b h5) h6 (ix2 p q) (ix2 0 q) (fun a => by
    match a with
    | ⟨0, _⟩ => show (0 : Fin 1).val = if (1 : Nat) = 1 then 0 else p.val; rw [if_pos rfl]; rfl
    | ⟨1, _⟩ => show q.val = if (128 : Nat) = 1 then 0 else q.val; rw [if_neg (by decide)])]
  refine shapeCast_apply b h5 (ix2 0 q) (ix1 q) ?_
  rw [Shape.rowMajor_val_two, Shape.rowMajor_val_one]
  show q.val = 0 * 128 + q.val
  omega

/-- One order's product into the zero accumulator at entry (p, q). -/
theorem product_apply (x : Vec Ideal S5000x128 .f32) (f : Vec Ideal S5000x1 .f32) (w : Vec Ideal S1x128x128 .f32)
    (h2 : S5000x1.Broadcasts S5000x128) (h3 : FTy.bits .bf16 < FTy.bits .f32) (h4 : S1x128x128.ShapeCasts S128x128)
    (p : Fin 5000) (q : Fin 128) :
    matmul (F := Ideal) dot_S5000x128_S128x128_S5000x128_1_0_0_1_n_n none
        (truncf .bf16 (mulf x (broadcastTo S5000x128 f h2)) h3) (truncf .bf16 (shapeCast S128x128 w h4) h3)
        (constant S5000x128 .f32 0x00000000#32) (ix2 p q)
      = ∑ j : Fin 128, (x (ix2 p j) * f (ix2 p 0)) * w (ix3 0 j q) := by
  rw [Cert.LibDot.matmul_10_zero_apply dot_S5000x128_S128x128_S5000x128_1_0_0_1_n_n rfl rfl rfl rfl rfl rfl]
  refine Finset.sum_congr rfl fun j _ => ?_
  rw [scaled_apply, slab_apply]

/-- THE STORED ENTRY: zero, plus the four orders' products in order, plus the bias. -/
theorem entry (x0 x1 x2 x3 : Vec Ideal S5000x128 .f32) (f0 f1 f2 f3 : Vec Ideal S5000x1 .f32)
    (w0 w1 w2 w3 : Vec Ideal S1x128x128 .f32) (b : Vec Ideal S128 .f32) (p : Fin 5000) (q : Fin 128) :
    k0_pay1 (F := Ideal) (k0_pay2 x0 f0 w0 x1 f1 w1) (k0_pay3 x2 f2) (k0_pay4 w2)
        (constant S5000x128 .f32 0x00000000#32) x3 f3 w3 b (ix2 p q)
      = ((((0 : EReal) + ∑ j : Fin 128, (x0 (ix2 p j) * f0 (ix2 p 0)) * w0 (ix3 0 j q))
          + ∑ j : Fin 128, (x1 (ix2 p j) * f1 (ix2 p 0)) * w1 (ix3 0 j q))
          + ∑ j : Fin 128, (x2 (ix2 p j) * f2 (ix2 p 0)) * w2 (ix3 0 j q))
          + ∑ j : Fin 128, (x3 (ix2 p j) * f3 (ix2 p 0)) * w3 (ix3 0 j q)
        + b (ix1 q) := by
  unfold k0_pay1 k0_pay2 k0_pay3 k0_pay4
  simp only [shapeCast_self]
  rw [addf_apply, addf_apply, addf_apply, addf_apply, addf_apply, broadcast_apply, product_apply, product_apply,
    product_apply, product_apply, bias_apply]
  show Ideal.ofBits .f32 0x00000000#32 + _ + _ + _ + _ + _ = _
  rw [Ideal.ofBits_zero_f32]

end Cert.Cheb.Payload

end
-- ==== Proof.Spec.lean ====
/-
  The value both programs compute, written once as a function of arrays.

  A node array `T` has a row per graph node and 128 features. For each of the four polynomial orders `k` the row
  `r` of `T_k` is scaled by the coefficient `fc[k, r]` and multiplied by the 128 x 128 weight matrix `w[k]`;
  the four products are added, in order, and the bias row is added last:

      out[r, c] = sum_k sum_j (fc[k, r] * T_k[r, j]) * w[k, j, c]  +  b[c].

  `order` is one order's inner sum at an entry and `combine` the whole array. The two programs differ from this
  form only in the order of the two factors of a scaled entry and in a leading zero summand; both laws hold on all
  extended reals (commutativity of the product, zero is neutral for the sum), so no finiteness is needed.
-/
import Idealize.ShloMosaic.Lib.ValueIdx
import Idealize.ShloMosaic.PureOps.Ideal.Laws

noncomputable section

open scoped BigOperators

namespace Cert.Cheb

open Idealize.ShloMosaic Idealize.ShloMosaic.ValueIdx

/-- Node arrays: 100000 nodes by 128 features. -/
abbrev SN : Shape := ⟨2, ![100000, 128]⟩
/-- Filter coefficients: one row of 100000 per order. -/
abbrev SC : Shape := ⟨2, ![4, 100000]⟩
/-- Weights: one 128 x 128 matrix per order. -/
abbrev SW : Shape := ⟨3, ![4, 128, 128]⟩
/-- The bias row. -/
abbrev SB : Shape := ⟨1, ![128]⟩

/-- Order `k`'s contribution to entry `(r, c)`: row `r` of `T`, scaled by `fc[k, r]`, against column `c` of `w[k]`. -/
def order (T : FVec Ideal SN .f32) (fc : FVec Ideal SC .f32) (w : FVec Ideal SW .f32) (k : Fin 4) (r : Fin 100000)
    (c : Fin 128) : EReal :=
  ∑ j : Fin 128, (fc (ix2 k r) * T (ix2 r j)) * w (ix3 k j c)

/-- The four orders' contributions added in order, then the bias. -/
def combineAt (T0 T1 T2 T3 : FVec Ideal SN .f32) (fc : FVec Ideal SC .f32) (w : FVec Ideal SW .f32)
    (b : FVec Ideal SB .f32) (r : Fin 100000) (c : Fin 128) : EReal :=
  order T0 fc w 0 r c + order T1 fc w 1 r c + order T2 fc w 2 r c + order T3 fc w 3 r c + b (ix1 c)

/-- The result array. -/
def combine (T0 T1 T2 T3 : FVec Ideal SN .f32) (fc : FVec Ideal SC .f32) (w : FVec Ideal SW .f32)
    (b : FVec Ideal SB .f32) : FVec Ideal SN .f32 :=
  fun i => combineAt T0 T1 T2 T3 fc w b (i 0) (i 1)

theorem combine_apply (T0 T1 T2 T3 : FVec Ideal SN .f32) (fc : FVec Ideal SC .f32) (w : FVec Ideal SW .f32)
    (b : FVec Ideal SB .f32) (r : Fin 100000) (c : Fin 128) :
    combine T0 T1 T2 T3 fc w b (ix2 r c) = combineAt T0 T1 T2 T3 fc w b r c := rfl

/-- The scaled entry with its factors in the other order gives the same inner sum. -/
theorem order_swapped (T : FVec Ideal SN .f32) (fc : FVec Ideal SC .f32) (w : FVec Ideal SW .f32) (k : Fin 4)
    (r : Fin 100000) (c : Fin 128) :
    ∑ j : Fin 128, (T (ix2 r j) * fc (ix2 k r)) * w (ix3 k j c) = order T fc w k r c := by
  unfold order
  exact Finset.sum_congr rfl fun j _ => by rw [mul_comm (T (ix2 r j))]

/-- The form with a leading zero and the factors swapped is `combineAt`. -/
theorem combineAt_of_swapped (T0 T1 T2 T3 : FVec Ideal SN .f32) (fc : FVec Ideal SC .f32) (w : FVec Ideal SW .f32)
    (b : FVec Ideal SB .f32) (r : Fin 100000) (c : Fin 128) :
    ((((0 : EReal) + ∑ j : Fin 128, (T0 (ix2 r j) * fc (ix2 0 r)) * w (ix3 0 j c))
        + ∑ j : Fin 128, (T1 (ix2 r j) * fc (ix2 1 r)) * w (ix3 1 j c))
        + ∑ j : Fin 128, (T2 (ix2 r j) * fc (ix2 2 r)) * w (ix3 2 j c))
        + ∑ j : Fin 128, (T3 (ix2 r j) * fc (ix2 3 r)) * w (ix3 3 j c)
      + b (ix1 c) = combineAt T0 T1 T2 T3 fc w b r c := by
  rw [order_swapped, order_swapped, order_swapped, order_swapped, zero_add]
  rfl

/-- Coefficient columns: one entry per node, as a 100000 x 1 array. -/
abbrev SK : Shape := ⟨2, ![100000, 1]⟩

/-- The form the kernel computes entry `(r, q)` in: from zero, each order's row entry times its coefficient column's
    entry, against the weight matrix; then the bias. -/
def kernelAt (T0 T1 T2 T3 : FVec Ideal SN .f32) (c0 c1 c2 c3 : FVec Ideal SK .f32) (w : FVec Ideal SW .f32)
    (b : FVec Ideal SB .f32) (r : Fin 100000) (q : Fin 128) : EReal :=
  ((((0 : EReal) + ∑ j : Fin 128, (T0 (ix2 r j) * c0 (ix2 r 0)) * w (ix3 0 j q))
      + ∑ j : Fin 128, (T1 (ix2 r j) * c1 (ix2 r 0)) * w (ix3 1 j q))
      + ∑ j : Fin 128, (T2 (ix2 r j) * c2 (ix2 r 0)) * w (ix3 2 j q))
      + ∑ j : Fin 128, (T3 (ix2 r j) * c3 (ix2 r 0)) * w (ix3 3 j q)
    + b (ix1 q)

/-- When the four columns are the four rows of the coefficient array, the kernel's form is `combineAt`. -/
theorem kernelAt_eq (T0 T1 T2 T3 : FVec Ideal SN .f32) (c0 c1 c2 c3 : FVec Ideal SK .f32) (fc : FVec Ideal SC .f32)
    (w : FVec Ideal SW .f32) (b : FVec Ideal SB .f32) (h0 : ∀ r, c0 (ix2 r 0) = fc (ix2 0 r))
    (h1 : ∀ r, c1 (ix2 r 0) = fc (ix2 1 r)) (h2 : ∀ r, c2 (ix2 r 0) = fc (ix2 2 r))
    (h3 : ∀ r, c3 (ix2 r 0) = fc (ix2 3 r)) (r : Fin 100000) (q : Fin 128) :
    kernelAt T0 T1 T2 T3 c0 c1 c2 c3 w b r q = combineAt T0 T1 T2 T3 fc w b r q := by
  unfold kernelAt
  rw [h0, h1, h2, h3]
  exact combineAt_of_swapped T0 T1 T2 T3 fc w b r q

end Cert.Cheb

end
-- ==== Proof.KernelValue.lean ====
/-
  The kernel's result array after its run, as one function of the arrays the region finds.

  The grid has 20 points. At point `t` every row window (the four node arrays, the four coefficient columns and the
  output) holds rows `5000 t … 5000 t + 4999` of its array, while the weight array and the bias row are fetched whole.
  So what point `t` writes back at entry (p, q) of its block is the kernel's form of the result at row
  `5000 t + p` and column `q`, and the 20 blocks tile the output: the array ends holding that form everywhere.

  Which rows of an array a window's block holds does not depend on what the array contains, so each block read is
  stated for an ARBITRARY array; the arrays computed before the region (the three propagated node arrays, the
  coefficient columns) enter only by name.
-/
import proofs.«134779_j17703855194471_1_alg».proof.Proof.Gen.KernelIdeal.Value
import proofs.«134779_j17703855194471_1_alg».proof.Proof.Payload
import proofs.«134779_j17703855194471_1_alg».proof.Proof.Spec

noncomputable section

open scoped BigOperators

namespace Cert.Cheb.KernelValue

open Cert.KernelIdeal Cert.KernelIdeal.Gen Cert.KernelIdeal.Value Idealize.ShloMosaic Idealize.ShloMosaic.TcCoe
open Idealize.SL.Sem Idealize.ShloMosaic.ValueIdx
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a <;> rfl

/-! ## Where each window's block sits: decided over the 20 points -/

/-- Every row window's block index at point `t` is `(t, 0)`; the weight and bias windows stay at the origin. -/
theorem index_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0)
    ∧ (win0_8.index t (0 : Fin 3) = 0 ∧ win0_8.index t (1 : Fin 3) = 0 ∧ win0_8.index t (2 : Fin 3) = 0)
    ∧ win0_9.index t (0 : Fin 1) = 0
    ∧ (win0_10.index t (0 : Fin 2) = t.val ∧ win0_10.index t (1 : Fin 2) = 0) :=
  (by decide +kernel : ∀ t : Fin grid0.N, _)

/-! ## A window's block read out of an ARBITRARY array -/
/-! A row window's block at point `t` is rows `5000 t …` of the array, all 128 columns (windows 0 to 3 read node
arrays, window 10 is the output's). -/

theorem rows0 (A : FVec Ideal S100000x128 .f32) (t : Fin cfg0.N) (x : S5000x128.Idx) (i : S100000x128.Idx)
    (h0 : (i 0).val = t.val * 5000 + (x 0).val) (h1 : (i 1).val = (x 1).val) :
    (((cfg0.win 0).blk t).view.read (Elt Ideal) A : Vec Ideal S5000x128 .f32) x = A i := by
  obtain ⟨⟨e0, e1⟩, -⟩ := index_facts t
  rw [View.read_apply]
  show A _ = A _
  congr 1
  funext a
  apply Fin.ext
  match a with
  | ⟨0, _⟩ => show win0_0.index t (0 : Fin 2) * 5000 + 1 * (x 0).val = (i 0).val; rw [e0, h0]; omega
  | ⟨1, _⟩ => show win0_0.index t (1 : Fin 2) * 128 + 1 * (x 1).val = (i 1).val; rw [e1, h1]; omega

theorem rows1 (A : FVec Ideal S100000x128 .f32) (t : Fin cfg0.N) (x : S5000x128.Idx) (i : S100000x128.Idx)
    (h0 : (i 0).val = t.val * 5000 + (x 0).val) (h1 : (i 1).val = (x 1).val) :
    (((cfg0.win 1).blk t).view.read (Elt Ideal) A : Vec Ideal S5000x128 .f32) x = A i := by
  obtain ⟨-, ⟨e0, e1⟩, -⟩ := index_facts t
  rw [View.read_apply]
  show A _ = A _
  congr 1
  funext a
  apply Fin.ext
  match a with
  | ⟨0, _⟩ => show win0_1.index t (0 : Fin 2) * 5000 + 1 * (x 0).val = (i 0).val; rw [e0, h0]; omega
  | ⟨1, _⟩ => show win0_1.index t (1 : Fin 2) * 128 + 1 * (x 1).val = (i 1).val; rw [e1, h1]; omega

theorem rows2 (A : FVec Ideal S100000x128 .f32) (t : Fin cfg0.N) (x : S5000x128.Idx) (i : S100000x128.Idx)
    (h0 : (i 0).val = t.val * 5000 + (x 0).val) (h1 : (i 1).val = (x 1).val) :
    (((cfg0.win 2).blk t).view.read (Elt Ideal) A : Vec Ideal S5000x128 .f32) x = A i := by
  obtain ⟨-, -, ⟨e0, e1⟩, -⟩ := index_facts t
  rw [View.read_apply]
  show A _ = A _
  congr 1
  funext a
  apply Fin.ext
  match a with
  | ⟨0, _⟩ => show win0_2.index t (0 : Fin 2) * 5000 + 1 * (x 0).val = (i 0).val; rw [e0, h0]; omega
  | ⟨1, _⟩ => show win0_2.index t (1 : Fin 2) * 128 + 1 * (x 1).val = (i 1).val; rw [e1, h1]; omega

theorem rows3 (A : FVec Ideal S100000x128 .f32) (t : Fin cfg0.N) (x : S5000x128.Idx) (i : S100000x128.Idx)
    (h0 : (i 0).val = t.val * 5000 + (x 0).val) (h1 : (i 1).val = (x 1).val) :
    (((cfg0.win 3).blk t).view.read (Elt Ideal) A : Vec Ideal S5000x128 .f32) x = A i := by
  obtain ⟨-, -, -, ⟨e0, e1⟩, -⟩ := index_facts t
  rw [View.read_apply]
  show A _ = A _
  congr 1
  funext a
  apply Fin.ext
  match a with
  | ⟨0, _⟩ => show win0_3.index t (0 : Fin 2) * 5000 + 1 * (x 0).val = (i 0).val; rw [e0, h0]; omega
  | ⟨1, _⟩ => show win0_3.index t (1 : Fin 2) * 128 + 1 * (x 1).val = (i 1).val; rw [e1, h1]; omega

theorem rows10 (A : FVec Ideal S100000x128 .f32) (t : Fin cfg0.N) (x : S5000x128.Idx) (i : S100000x128.Idx)
    (h0 : (i 0).val = t.val * 5000 + (x 0).val) (h1 : (i 1).val = (x 1).val) :
    (((cfg0.win 10).blk t).view.read (Elt Ideal) A : Vec Ideal S5000x128 .f32) x = A i := by
  obtain ⟨-, -, -, -, -, -, -, -, -, -, ⟨e0, e1⟩⟩ := index_facts t
  rw [View.read_apply]
  show A _ = A _
  congr 1
  funext a
  apply Fin.ext
  match a with
  | ⟨0, _⟩ => show win0_10.index t (0 : Fin 2) * 5000 + 1 * (x 0).val = (i 0).val; rw [e0, h0]; omega
  | ⟨1, _⟩ => show win0_10.index t (1 : Fin 2) * 128 + 1 * (x 1).val = (i 1).val; rw [e1, h1]; omega

/-! A coefficient window's block at point `t` is rows `5000 t …` of the one-column array (windows 4 to 7). -/

theorem rows4 (A : FVec Ideal S100000x1 .f32) (t : Fin cfg0.N) (x : S5000x1.Idx) (i : S100000x1.Idx)
    (h0 : (i 0).val = t.val * 5000 + (x 0).val) :
    (((cfg0.win 4).blk t).view.read (Elt Ideal) A : Vec Ideal S5000x1 .f32) x = A i := by
  obtain ⟨-, -, -, -, ⟨e0, e1⟩, -⟩ := index_facts t
  rw [View.read_apply]
  show A _ = A _
  congr 1
  funext a
  apply Fin.ext
  match a with
  | ⟨0, _⟩ => show win0_4.index t (0 : Fin 2) * 5000 + 1 * (x 0).val = (i 0).val; rw [e0, h0]; omega
  | ⟨1, _⟩ =>
    show win0_4.index t (1 : Fin 2) * 1 + 1 * (x 1).val = (i 1).val
    have hx : (x 1).val < 1 := (x 1).isLt
    have hi : (i 1).val < 1 := (i 1).isLt
    rw [e1]; omega

theorem rows5 (A : FVec Ideal S100000x1 .f32) (t : Fin cfg0.N) (x : S5000x1.Idx) (i : S100000x1.Idx)
    (h0 : (i 0).val = t.val * 5000 + (x 0).val) :
    (((cfg0.win 5).blk t).view.read (Elt Ideal) A : Vec Ideal S5000x1 .f32) x = A i := by
  obtain ⟨-, -, -, -, -, ⟨e0, e1⟩, -⟩ := index_facts t
  rw [View.read_apply]
  show A _ = A _
  congr 1
  funext a
  apply Fin.ext
  match a with
  | ⟨0, _⟩ => show win0_5.index t (0 : Fin 2) * 5000 + 1 * (x 0).val = (i 0).val; rw [e0, h0]; omega
  | ⟨1, _⟩ =>
    show win0_5.index t (1 : Fin 2) * 1 + 1 * (x 1).val = (i 1).val
    have hx : (x 1).val < 1 := (x 1).isLt
    have hi : (i 1).val < 1 := (i 1).isLt
    rw [e1]; omega

theorem rows6 (A : FVec Ideal S100000x1 .f32) (t : Fin cfg0.N) (x : S5000x1.Idx) (i : S100000x1.Idx)
    (h0 : (i 0).val = t.val * 5000 + (x 0).val) :
    (((cfg0.win 6).blk t).view.read (Elt Ideal) A : Vec Ideal S5000x1 .f32) x = A i := by
  obtain ⟨-, -, -, -, -, -, ⟨e0, e1⟩, -⟩ := index_facts t
  rw [View.read_apply]
  show A _ = A _
  congr 1
  funext a
  apply Fin.ext
  match a with
  | ⟨0, _⟩ => show win0_6.index t (0 : Fin 2) * 5000 + 1 * (x 0).val = (i 0).val; rw [e0, h0]; omega
  | ⟨1, _⟩ =>
    show win0_6.index t (1 : Fin 2) * 1 + 1 * (x 1).val = (i 1).val
    have hx : (x 1).val < 1 := (x 1).isLt
    have hi : (i 1).val < 1 := (i 1).isLt
    rw [e1]; omega

theorem rows7 (A : FVec Ideal S100000x1 .f32) (t : Fin cfg0.N) (x : S5000x1.Idx) (i : S100000x1.Idx)
    (h0 : (i 0).val = t.val * 5000 + (x 0).val) :
    (((cfg0.win 7).blk t).view.read (Elt Ideal) A : Vec Ideal S5000x1 .f32) x = A i := by
  obtain ⟨-, -, -, -, -, -, -, ⟨e0, e1⟩, -⟩ := index_facts t
  rw [View.read_apply]
  show A _ = A _
  congr 1
  funext a
  apply Fin.ext
  match a with
  | ⟨0, _⟩ => show win0_7.index t (0 : Fin 2) * 5000 + 1 * (x 0).val = (i 0).val; rw [e0, h0]; omega
  | ⟨1, _⟩ =>
    show win0_7.index t (1 : Fin 2) * 1 + 1 * (x 1).val = (i 1).val
    have hx : (x 1).val < 1 := (x 1).isLt
    have hi : (i 1).val < 1 := (i 1).isLt
    rw [e1]; omega

/-- The weight window's block is the whole array at every point. -/
theorem whole8 (A : FVec Ideal S4x128x128 .f32) (t : Fin cfg0.N) :
    (((cfg0.win 8).blk t).view.read (Elt Ideal) A : Vec Ideal S4x128x128 .f32) = A := by
  obtain ⟨-, -, -, -, -, -, -, -, ⟨e0, e1, e2⟩, -⟩ := index_facts t
  funext x
  rw [View.read_apply]
  show A _ = A _
  congr 1
  funext a
  apply Fin.ext
  match a with
  | ⟨0, _⟩ => show win0_8.index t (0 : Fin 3) * 4 + 1 * (x 0).val = (x 0).val; rw [e0]; omega
  | ⟨1, _⟩ => show win0_8.index t (1 : Fin 3) * 128 + 1 * (x 1).val = (x 1).val; rw [e1]; omega
  | ⟨2, _⟩ => show win0_8.index t (2 : Fin 3) * 128 + 1 * (x 2).val = (x 2).val; rw [e2]; omega

/-- The bias window's block is the whole row at every point. -/
theorem whole9 (A : FVec Ideal S128 .f32) (t : Fin cfg0.N) :
    (((cfg0.win 9).blk t).view.read (Elt Ideal) A : Vec Ideal S128 .f32) = A := by
  obtain ⟨-, -, -, -, -, -, -, -, -, e0, -⟩ := index_facts t
  funext x
  rw [View.read_apply]
  show A _ = A _
  congr 1
  funext a
  apply Fin.ext
  match a with
  | ⟨0, _⟩ => show win0_9.index t (0 : Fin 1) * 128 + 1 * (x 0).val = (x 0).val; rw [e0]; omega

/-! ## The arrays as the region finds them, by name -/

def node0 (c : Dev nD) : FVec Ideal S100000x128 .f32 := V m c (Pipeline.arrRef spec0 0)
def node1 (c : Dev nD) : FVec Ideal S100000x128 .f32 := V m c (Pipeline.arrRef spec0 1)
def node2 (c : Dev nD) : FVec Ideal S100000x128 .f32 := V m c (Pipeline.arrRef spec0 2)
def node3 (c : Dev nD) : FVec Ideal S100000x128 .f32 := V m c (Pipeline.arrRef spec0 3)
def col0 (c : Dev nD) : FVec Ideal S100000x1 .f32 := V m c (Pipeline.arrRef spec0 4)
def col1 (c : Dev nD) : FVec Ideal S100000x1 .f32 := V m c (Pipeline.arrRef spec0 5)
def col2 (c : Dev nD) : FVec Ideal S100000x1 .f32 := V m c (Pipeline.arrRef spec0 6)
def col3 (c : Dev nD) : FVec Ideal S100000x1 .f32 := V m c (Pipeline.arrRef spec0 7)
def wts (c : Dev nD) : FVec Ideal S4x128x128 .f32 := V m c (Pipeline.arrRef spec0 8)
def bias (c : Dev nD) : FVec Ideal S128 .f32 := V m c (Pipeline.arrRef spec0 9)

/-- The blocks point `t` loads are reads of those arrays through the windows' rectangles. -/
theorem iblk0 (c : Dev nD) (t : Fin cfg0.N) : iblk m c 0 t = ((cfg0.win 0).blk t).view.read (Elt Ideal) (node0 m c) := rfl
theorem iblk1 (c : Dev nD) (t : Fin cfg0.N) : iblk m c 1 t = ((cfg0.win 1).blk t).view.read (Elt Ideal) (node1 m c) := rfl
theorem iblk2 (c : Dev nD) (t : Fin cfg0.N) : iblk m c 2 t = ((cfg0.win 2).blk t).view.read (Elt Ideal) (node2 m c) := rfl
theorem iblk3 (c : Dev nD) (t : Fin cfg0.N) : iblk m c 3 t = ((cfg0.win 3).blk t).view.read (Elt Ideal) (node3 m c) := rfl
theorem iblk4 (c : Dev nD) (t : Fin cfg0.N) : iblk m c 4 t = ((cfg0.win 4).blk t).view.read (Elt Ideal) (col0 m c) := rfl
theorem iblk5 (c : Dev nD) (t : Fin cfg0.N) : iblk m c 5 t = ((cfg0.win 5).blk t).view.read (Elt Ideal) (col1 m c) := rfl
theorem iblk6 (c : Dev nD) (t : Fin cfg0.N) : iblk m c 6 t = ((cfg0.win 6).blk t).view.read (Elt Ideal) (col2 m c) := rfl
theorem iblk7 (c : Dev nD) (t : Fin cfg0.N) : iblk m c 7 t = ((cfg0.win 7).blk t).view.read (Elt Ideal) (col3 m c) := rfl
theorem iblk8 (c : Dev nD) (t : Fin cfg0.N) : iblk m c 8 t = ((cfg0.win 8).blk t).view.read (Elt Ideal) (wts m c) := rfl
theorem iblk9 (c : Dev nD) (t : Fin cfg0.N) : iblk m c 9 t = ((cfg0.win 9).blk t).view.read (Elt Ideal) (bias m c) := rfl

/-! ## What the body leaves in the output block, entry by entry -/

/-- Slab `k` of the weight array, loaded through the rectangle that starts at `(k, 0, 0)`: its entry (0, j, q) is
    W[k, j, q]. -/
theorem slab_ld (W : Vec Ideal S4x128x128 .f32) (off : Fin 3 → Nat)
    (inb : ∀ a, off a + S1x128x128.size a ≤ S4x128x128.size a) (k : Fin 4) (h0 : off 0 = k.val) (h1 : off 1 = 0)
    (h2 : off 2 = 0) (j q : Fin 128) :
    View.ld W (Rect.unit (s := S4x128x128) off S1x128x128.size inb) (ix3 0 j q) = W (ix3 k j q) := by
  show W _ = W _
  congr 1
  funext a
  apply Fin.ext
  match a with
  | ⟨0, _⟩ => show off 0 + 1 * 0 = k.val; omega
  | ⟨1, _⟩ => show off 1 + 1 * j.val = j.val; omega
  | ⟨2, _⟩ => show off 2 + 1 * q.val = q.val; omega

/-- The output block after the body, at entry (p, q), from the ten loaded blocks. -/
theorem block_entry (x0 x1 x2 x3 : Vec Ideal S5000x128 .f32) (f0 f1 f2 f3 : Vec Ideal S5000x1 .f32)
    (W : Vec Ideal S4x128x128 .f32) (b : Vec Ideal S128 .f32) (p : Fin 5000) (q : Fin 128) :
    out0_10 (F := Ideal) x0 x1 x2 x3 f0 f1 f2 f3 W b (ix2 p q)
      = ((((0 : EReal) + ∑ j : Fin 128, (x0 (ix2 p j) * f0 (ix2 p 0)) * W (ix3 0 j q))
          + ∑ j : Fin 128, (x1 (ix2 p j) * f1 (ix2 p 0)) * W (ix3 1 j q))
          + ∑ j : Fin 128, (x2 (ix2 p j) * f2 (ix2 p 0)) * W (ix3 2 j q))
          + ∑ j : Fin 128, (x3 (ix2 p j) * f3 (ix2 p 0)) * W (ix3 3 j q)
        + b (ix1 q) := by
  unfold out0_10
  rw [View.canon_unit_zero hz2]
  simp only [View.ld_unit_zero (S := S5000x128) hz2, View.ld_unit_zero (S := S5000x1) hz2,
    View.ld_unit_zero (S := S128) hz1]
  rw [Payload.entry]
  have e0 : ∀ j, View.ld W r0_2 (ix3 0 j q) = W (ix3 0 j q) := fun j => slab_ld W _ _ 0 rfl rfl rfl j q
  have e1 : ∀ j, View.ld W r0_3 (ix3 0 j q) = W (ix3 1 j q) := fun j => slab_ld W _ _ 1 rfl rfl rfl j q
  have e2 : ∀ j, View.ld W r0_4 (ix3 0 j q) = W (ix3 2 j q) := fun j => slab_ld W _ _ 2 rfl rfl rfl j q
  have e3 : ∀ j, View.ld W r0_5 (ix3 0 j q) = W (ix3 3 j q) := fun j => slab_ld W _ _ 3 rfl rfl rfl j q
  simp only [e0, e1, e2, e3]

/-- The same at any index of the block. -/
theorem block_entry_at (x0 x1 x2 x3 : Vec Ideal S5000x128 .f32) (f0 f1 f2 f3 : Vec Ideal S5000x1 .f32)
    (W : Vec Ideal S4x128x128 .f32) (b : Vec Ideal S128 .f32) (y : S5000x128.Idx) (p : Fin 5000) (q : Fin 128)
    (hp : (y 0).val = p.val) (hq : (y 1).val = q.val) :
    out0_10 (F := Ideal) x0 x1 x2 x3 f0 f1 f2 f3 W b y
      = ((((0 : EReal) + ∑ j : Fin 128, (x0 (ix2 p j) * f0 (ix2 p 0)) * W (ix3 0 j q))
          + ∑ j : Fin 128, (x1 (ix2 p j) * f1 (ix2 p 0)) * W (ix3 1 j q))
          + ∑ j : Fin 128, (x2 (ix2 p j) * f2 (ix2 p 0)) * W (ix3 2 j q))
          + ∑ j : Fin 128, (x3 (ix2 p j) * f3 (ix2 p 0)) * W (ix3 3 j q)
        + b (ix1 q) := by
  have hy : y = ix2 p q := funext fun a => Fin.ext (by
    match a with
    | ⟨0, _⟩ => exact hp
    | ⟨1, _⟩ => exact hq)
  rw [hy]
  exact block_entry x0 x1 x2 x3 f0 f1 f2 f3 W b p q

/-! ## The whole array -/

/-- The kernel's form of the result, from the arrays as the region finds them. -/
def result (c : Dev nD) : FVec Ideal S100000x128 .f32 := fun i =>
  kernelAt (node0 m c) (node1 m c) (node2 m c) (node3 m c) (col0 m c) (col1 m c) (col2 m c) (col3 m c) (wts m c)
    (bias m c) (i 0) (i 1)

theorem result_apply (c : Dev nD) (r : Fin 100000) (q : Fin 128) :
    result m c (ix2 r q) = kernelAt (node0 m c) (node1 m c) (node2 m c) (node3 m c) (col0 m c) (col1 m c) (col2 m c)
      (col3 m c) (wts m c) (bias m c) r q := rfl

/-- WHAT POINT `t` WRITES BACK is block `t` of `result`. -/
theorem flushed_eq (c : Dev nD) (t : Fin cfg0.N) :
    (dats m 0 c).flushed 10 t = ((cfg0.win 10).blk t).view.read (Elt Ideal) (result m c) := by
  rw [flushed10, iblk0, iblk1, iblk2, iblk3, iblk4, iblk5, iblk6, iblk7, iblk8, iblk9, whole8, whole9]
  funext y
  have hN : cfg0.N = 20 := N_0
  have ht : t.val < 20 := hN ▸ t.isLt
  have hy0 : (y 0).val < 5000 := (y 0).isLt
  have hy1 : (y 1).val < 128 := (y 1).isLt
  have hr : t.val * 5000 + (y 0).val < 100000 := by omega
  refine Eq.trans ?_ (rows10 (result m c) t y (ix2 ⟨t.val * 5000 + (y 0).val, hr⟩ ⟨(y 1).val, hy1⟩) rfl rfl).symm
  refine (block_entry_at _ _ _ _ _ _ _ _ (wts m c) (bias m c) _ ⟨(y 0).val, hy0⟩ ⟨(y 1).val, hy1⟩ rfl rfl).trans ?_
  rw [result_apply]
  unfold kernelAt
  have n0 : ∀ j : Fin 128, (((cfg0.win 0).blk t).view.read (Elt Ideal) (node0 m c) : Vec Ideal S5000x128 .f32)
      (ix2 ⟨(y 0).val, hy0⟩ j) = node0 m c (ix2 ⟨t.val * 5000 + (y 0).val, hr⟩ j) :=
    fun j => rows0 (node0 m c) t _ _ rfl rfl
  have n1 : ∀ j : Fin 128, (((cfg0.win 1).blk t).view.read (Elt Ideal) (node1 m c) : Vec Ideal S5000x128 .f32)
      (ix2 ⟨(y 0).val, hy0⟩ j) = node1 m c (ix2 ⟨t.val * 5000 + (y 0).val, hr⟩ j) :=
    fun j => rows1 (node1 m c) t _ _ rfl rfl
  have n2 : ∀ j : Fin 128, (((cfg0.win 2).blk t).view.read (Elt Ideal) (node2 m c) : Vec Ideal S5000x128 .f32)
      (ix2 ⟨(y 0).val, hy0⟩ j) = node2 m c (ix2 ⟨t.val * 5000 + (y 0).val, hr⟩ j) :=
    fun j => rows2 (node2 m c) t _ _ rfl rfl
  have n3 : ∀ j : Fin 128, (((cfg0.win 3).blk t).view.read (Elt Ideal) (node3 m c) : Vec Ideal S5000x128 .f32)
      (ix2 ⟨(y 0).val, hy0⟩ j) = node3 m c (ix2 ⟨t.val * 5000 + (y 0).val, hr⟩ j) :=
    fun j => rows3 (node3 m c) t _ _ rfl rfl
  have k0 : (((cfg0.win 4).blk t).view.read (Elt Ideal) (col0 m c) : Vec Ideal S5000x1 .f32)
      (ix2 ⟨(y 0).val, hy0⟩ 0) = col0 m c (ix2 ⟨t.val * 5000 + (y 0).val, hr⟩ 0) := rows4 (col0 m c) t _ _ rfl
  have k1 : (((cfg0.win 5).blk t).view.read (Elt Ideal) (col1 m c) : Vec Ideal S5000x1 .f32)
      (ix2 ⟨(y 0).val, hy0⟩ 0) = col1 m c (ix2 ⟨t.val * 5000 + (y 0).val, hr⟩ 0) := rows5 (col1 m c) t _ _ rfl
  have k2 : (((cfg0.win 6).blk t).view.read (Elt Ideal) (col2 m c) : Vec Ideal S5000x1 .f32)
      (ix2 ⟨(y 0).val, hy0⟩ 0) = col2 m c (ix2 ⟨t.val * 5000 + (y 0).val, hr⟩ 0) := rows6 (col2 m c) t _ _ rfl
  have k3 : (((cfg0.win 7).blk t).view.read (Elt Ideal) (col3 m c) : Vec Ideal S5000x1 .f32)
      (ix2 ⟨(y 0).val, hy0⟩ 0) = col3 m c (ix2 ⟨t.val * 5000 + (y 0).val, hr⟩ 0) := rows7 (col3 m c) t _ _ rfl
  simp only [n0, n1, n2, n3, k0, k1, k2, k3]

/-- An index of the output array is in point `t`'s block iff each coordinate is in the block's range on its axis. -/
theorem mem_blk (t : Fin cfg0.N) (i : S100000x128.Idx) :
    i ∈ ((cfg0.win 10).blk t).view.set ↔ ∀ a : Fin 2, win0_10.index t a * S5000x128.size a ≤ (i a).val
      ∧ (i a).val < win0_10.index t a * S5000x128.size a + S5000x128.size a := by
  show i ∈ ((View.whole main_v57).slice (win0_10.rect t)).set ↔ _
  rw [View.set_slice_whole, Rect.mem_set_unit]
  exact Iff.rfl

/-- The 20 blocks tile the output: row `r` is in the block of point `r / 5000`. -/
theorem cover (i : S100000x128.Idx) :
    ∃ t : Fin cfg0.N, (cfg0.win 10).flush t = true ∧ i ∈ ((cfg0.win 10).blk t).view.set := by
  have hN : cfg0.N = 20 := N_0
  have hi0 : (i 0).val < 100000 := (i 0).isLt
  have hi1 : (i 1).val < 128 := (i 1).isLt
  have ht : (i 0).val / 5000 < cfg0.N := by rw [hN]; omega
  obtain ⟨-, -, -, -, -, -, -, -, -, -, ⟨e0, e1⟩⟩ := index_facts ⟨(i 0).val / 5000, ht⟩
  refine ⟨⟨(i 0).val / 5000, ht⟩, flush0_10 _, ?_⟩
  rw [mem_blk]
  intro a
  match a with
  | ⟨0, _⟩ =>
    show win0_10.index ⟨(i 0).val / 5000, ht⟩ (0 : Fin 2) * 5000 ≤ (i 0).val
      ∧ (i 0).val < win0_10.index ⟨(i 0).val / 5000, ht⟩ (0 : Fin 2) * 5000 + 5000
    rw [e0]
    show (i 0).val / 5000 * 5000 ≤ (i 0).val ∧ (i 0).val < (i 0).val / 5000 * 5000 + 5000
    omega
  | ⟨1, _⟩ =>
    show win0_10.index ⟨(i 0).val / 5000, ht⟩ (1 : Fin 2) * 128 ≤ (i 1).val
      ∧ (i 1).val < win0_10.index ⟨(i 0).val / 5000, ht⟩ (1 : Fin 2) * 128 + 128
    rw [e1]
    omega

/-- So the output array ends holding `result`. -/
theorem final (c : Dev nD) : (dats m 0 c).arrAt 10 cfg0.N = result m c :=
  (dats m 0 c).arrAt_eq_of_cover 10 (result m c) (fun t _ => flushed_eq m c t) cover

/-- The kernel's run, read: the output array at `result`, the arguments unchanged. -/
theorem run : θ_run defs (onTc (τ := τ) (main (F := Ideal))) ⟨m, fun _ => 0, ρ⟩ fun r => ∀ c : Dev nD,
      r.2.mem ((c : Thread nD τ).loc main_v57) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (run_blocks m ρ)

end Cert.Cheb.KernelValue

end
-- ==== Proof.RefValue.lean ====
/-
  The reference's result, read entry by entry, is `combine` of the input node array and the three propagated node
  arrays, which stay opaque here (each is a gather, a scaling and a scatter-add over the edges, and the kernel's host
  part computes them with the very same operations).

  Per order: the coefficient row is sliced out of the coefficient array, reshaped and spread along the features, so at
  (r, j) it reads fc[k, r]; the weight matrix is slice `k` of the weight array; the product of the scaled node array
  with it is the sum over the contracted feature. The four products are added in order and the bias row, spread along
  the rows, is added last.
-/
import proofs.«134779_j17703855194471_1_alg».proof.Proof.Gen.ReferenceIdeal.Read
import proofs.«134779_j17703855194471_1_alg».proof.Proof.Spec

noncomputable section

open scoped BigOperators

namespace Cert.Cheb.RefValue

open Cert.ReferenceIdeal Cert.ReferenceIdeal.Gen Cert.ReferenceIdeal.Read Idealize.ShloMosaic
open Idealize.ShloMosaic.ValueIdx

/-! ## The coefficient rows, spread along the features -/

/-- Order 0's coefficient array at (r, j) is fc[0, r]. -/
theorem coef0 (x1 : FVec Ideal S4x100000 .f32) (j : S100000x128.Idx) :
    val_main_v3 (F := Ideal) x1 j = x1 (ix2 0 (j 0)) := by
  rw [val_main_v3_apply, val_main_v2_apply, val_main_v1_apply, val_main_v0_apply]
  have h : (j 0).val < 100000 := (j 0).isLt
  congr 1
  funext a
  apply Fin.ext
  match a with
  | ⟨0, _⟩ => rfl
  | ⟨1, _⟩ => show (j 0).val % 100000 = (j 0).val; omega

/-- Order 1's coefficient array at (r, j) is fc[1, r]. -/
theorem coef1 (x1 : FVec Ideal S4x100000 .f32) (j : S100000x128.Idx) :
    val_main_v24 (F := Ideal) x1 j = x1 (ix2 1 (j 0)) := by
  rw [val_main_v24_apply, val_main_v23_apply, val_main_v22_apply, val_main_v21_apply]
  have h : (j 0).val < 100000 := (j 0).isLt
  congr 1
  funext a
  apply Fin.ext
  match a with
  | ⟨0, _⟩ => rfl
  | ⟨1, _⟩ => show (j 0).val % 100000 = (j 0).val; omega

/-- Order 2's coefficient array at (r, j) is fc[2, r]. -/
theorem coef2 (x1 : FVec Ideal S4x100000 .f32) (j : S100000x128.Idx) :
    val_main_v49 (F := Ideal) x1 j = x1 (ix2 2 (j 0)) := by
  rw [val_main_v49_apply, val_main_v48_apply, val_main_v47_apply, val_main_v46_apply]
  have h : (j 0).val < 100000 := (j 0).isLt
  congr 1
  funext a
  apply Fin.ext
  match a with
  | ⟨0, _⟩ => rfl
  | ⟨1, _⟩ => show (j 0).val % 100000 = (j 0).val; omega

/-- Order 3's coefficient array at (r, j) is fc[3, r]. -/
theorem coef3 (x1 : FVec Ideal S4x100000 .f32) (j : S100000x128.Idx) :
    val_main_v74 (F := Ideal) x1 j = x1 (ix2 3 (j 0)) := by
  rw [val_main_v74_apply, val_main_v73_apply, val_main_v72_apply, val_main_v71_apply]
  have h : (j 0).val < 100000 := (j 0).isLt
  congr 1
  funext a
  apply Fin.ext
  match a with
  | ⟨0, _⟩ => rfl
  | ⟨1, _⟩ => show (j 0).val % 100000 = (j 0).val; omega

/-! ## The weight matrices -/

/-- Order 0's weight matrix at (j, q) is w[0, j, q]. -/
theorem weight0 (x2 : FVec Ideal S4x128x128 .f32) (i : S128x128.Idx) :
    val_main_v6 (F := Ideal) x2 i = x2 (ix3 0 (i 0) (i 1)) := by
  rw [val_main_v6_apply, val_main_v5_apply]
  have h0 : (i 0).val < 128 := (i 0).isLt
  have h1 : (i 1).val < 128 := (i 1).isLt
  congr 1
  funext a
  apply Fin.ext
  match a with
  | ⟨0, _⟩ => rfl
  | ⟨1, _⟩ => show ((i 0).val * 128 + (i 1).val) / 128 % 128 = (i 0).val; omega
  | ⟨2, _⟩ => show ((i 0).val * 128 + (i 1).val) % 128 = (i 1).val; omega

/-- Order 1's weight matrix at (j, q) is w[1, j, q]. -/
theorem weight1 (x2 : FVec Ideal S4x128x128 .f32) (i : S128x128.Idx) :
    val_main_v27 (F := Ideal) x2 i = x2 (ix3 1 (i 0) (i 1)) := by
  rw [val_main_v27_apply, val_main_v26_apply]
  have h0 : (i 0).val < 128 := (i 0).isLt
  have h1 : (i 1).val < 128 := (i 1).isLt
  congr 1
  funext a
  apply Fin.ext
  match a with
  | ⟨0, _⟩ => rfl
  | ⟨1, _⟩ => show ((i 0).val * 128 + (i 1).val) / 128 % 128 = (i 0).val; omega
  | ⟨2, _⟩ => show ((i 0).val * 128 + (i 1).val) % 128 = (i 1).val; omega

/-- Order 2's weight matrix at (j, q) is w[2, j, q]. -/
theorem weight2 (x2 : FVec Ideal S4x128x128 .f32) (i : S128x128.Idx) :
    val_main_v52 (F := Ideal) x2 i = x2 (ix3 2 (i 0) (i 1)) := by
  rw [val_main_v52_apply, val_main_v51_apply]
  have h0 : (i 0).val < 128 := (i 0).isLt
  have h1 : (i 1).val < 128 := (i 1).isLt
  congr 1
  funext a
  apply Fin.ext
  match a with
  | ⟨0, _⟩ => rfl
  | ⟨1, _⟩ => show ((i 0).val * 128 + (i 1).val) / 128 % 128 = (i 0).val; omega
  | ⟨2, _⟩ => show ((i 0).val * 128 + (i 1).val) % 128 = (i 1).val; omega

/-- Order 3's weight matrix at (j, q) is w[3, j, q]. -/
theorem weight3 (x2 : FVec Ideal S4x128x128 .f32) (i : S128x128.Idx) :
    val_main_v77 (F := Ideal) x2 i = x2 (ix3 3 (i 0) (i 1)) := by
  rw [val_main_v77_apply, val_main_v76_apply]
  have h0 : (i 0).val < 128 := (i 0).isLt
  have h1 : (i 1).val < 128 := (i 1).isLt
  congr 1
  funext a
  apply Fin.ext
  match a with
  | ⟨0, _⟩ => rfl
  | ⟨1, _⟩ => show ((i 0).val * 128 + (i 1).val) / 128 % 128 = (i 0).val; omega
  | ⟨2, _⟩ => show ((i 0).val * 128 + (i 1).val) % 128 = (i 1).val; omega

/-! ## Each order's product, entry by entry -/

theorem order0_eq (x0 : FVec Ideal S100000x128 .f32) (x1 : FVec Ideal S4x100000 .f32) (x2 : FVec Ideal S4x128x128 .f32) (r : Fin 100000) (c : Fin 128) :
    val_main_v7 (F := Ideal) x0 x1 x2 (ix2 r c) = order x0 x1 x2 0 r c := by
  rw [val_main_v7_apply]
  unfold order
  refine Finset.sum_congr rfl fun k _ => ?_
  have hl : lidx_main_v7 (ix2 r c) k = ix2 r k := funext fun a => by
    match a with
    | ⟨0, _⟩ => rfl
    | ⟨1, _⟩ => rfl
  rw [val_main_v4_apply, coef0, weight0, hl]
  rfl

theorem order1_eq (x0 : FVec Ideal S100000x128 .f32) (x1 : FVec Ideal S4x100000 .f32) (x2 : FVec Ideal S4x128x128 .f32) (x4 : FVec Ideal S1600000 .f32) (x5 x6 : IVec S1600000 32) (r : Fin 100000) (c : Fin 128) :
    val_main_v28 (F := Ideal) x0 x1 x2 x4 x5 x6 (ix2 r c) = order (val_main_v20 (F := Ideal) x0 x4 x5 x6) x1 x2 1 r c := by
  rw [val_main_v28_apply]
  unfold order
  refine Finset.sum_congr rfl fun k _ => ?_
  have hl : lidx_main_v28 (ix2 r c) k = ix2 r k := funext fun a => by
    match a with
    | ⟨0, _⟩ => rfl
    | ⟨1, _⟩ => rfl
  rw [val_main_v25_apply, coef1, weight1, hl]
  rfl

theorem order2_eq (x0 : FVec Ideal S100000x128 .f32) (x1 : FVec Ideal S4x100000 .f32) (x2 : FVec Ideal S4x128x128 .f32) (x4 : FVec Ideal S1600000 .f32) (x5 x6 : IVec S1600000 32) (r : Fin 100000) (c : Fin 128) :
    val_main_v53 (F := Ideal) x0 x1 x2 x4 x5 x6 (ix2 r c) = order (val_main_v45 (F := Ideal) x0 x4 x5 x6) x1 x2 2 r c := by
  rw [val_main_v53_apply]
  unfold order
  refine Finset.sum_congr rfl fun k _ => ?_
  have hl : lidx_main_v53 (ix2 r c) k = ix2 r k := funext fun a => by
    match a with
    | ⟨0, _⟩ => rfl
    | ⟨1, _⟩ => rfl
  rw [val_main_v50_apply, coef2, weight2, hl]
  rfl

theorem order3_eq (x0 : FVec Ideal S100000x128 .f32) (x1 : FVec Ideal S4x100000 .f32) (x2 : FVec Ideal S4x128x128 .f32) (x4 : FVec Ideal S1600000 .f32) (x5 x6 : IVec S1600000 32) (r : Fin 100000) (c : Fin 128) :
    val_main_v78 (F := Ideal) x0 x1 x2 x4 x5 x6 (ix2 r c) = order (val_main_v70 (F := Ideal) x0 x4 x5 x6) x1 x2 3 r c := by
  rw [val_main_v78_apply]
  unfold order
  refine Finset.sum_congr rfl fun k _ => ?_
  have hl : lidx_main_v78 (ix2 r c) k = ix2 r k := funext fun a => by
    match a with
    | ⟨0, _⟩ => rfl
    | ⟨1, _⟩ => rfl
  rw [val_main_v75_apply, coef3, weight3, hl]
  rfl

/-- The bias row spread along the rows: at (r, c) it reads b[c]. -/
theorem bias_eq (x3 : FVec Ideal S128 .f32) (i : S100000x128.Idx) : val_main_v81 (F := Ideal) x3 i = x3 (ix1 (i 1)) := by
  rw [val_main_v81_apply, val_main_v80_apply]
  congr 1
  funext a
  apply Fin.ext
  match a with
  | ⟨0, _⟩ => rfl

/-! ## The result -/

/-- THE REFERENCE'S RESULT is `combine` of the node arrays, the coefficients, the weights and the bias. -/
theorem result_eq (x0 : FVec Ideal S100000x128 .f32) (x1 : FVec Ideal S4x100000 .f32) (x2 : FVec Ideal S4x128x128 .f32) (x3 : FVec Ideal S128 .f32) (x4 : FVec Ideal S1600000 .f32) (x5 x6 : IVec S1600000 32) :
    val_main_v82 (F := Ideal) x0 x1 x2 x3 x4 x5 x6
      = combine x0 (val_main_v20 (F := Ideal) x0 x4 x5 x6) (val_main_v45 (F := Ideal) x0 x4 x5 x6)
          (val_main_v70 (F := Ideal) x0 x4 x5 x6) x1 x2 x3 := by
  funext i
  obtain ⟨r, c, rfl⟩ : ∃ (r : Fin 100000) (c : Fin 128), i = ix2 r c := ⟨i 0, i 1, eq_ix2 i⟩
  rw [combine_apply]
  unfold combineAt
  rw [val_main_v82_apply, val_main_v79_apply, val_main_v54_apply, val_main_v29_apply, order0_eq, order1_eq,
    order2_eq, order3_eq, bias_eq]
  rfl

end Cert.Cheb.RefValue

end
-- ==== Proof.Bridge.lean ====
/-
  The arrays the kernel's region finds, as terms of the arguments.

  Before the region the kernel's host part computes the three propagated node arrays — each a gather of rows by the
  source index (a negative index wrapped by the row count), a scaling by the edge weight, and a scatter-add into the
  destination rows, the second and third then doubled and diminished by the array two orders before — and cuts the
  coefficient array into four one-column arrays. The reference computes the propagated arrays with the same operations
  in the same order, so each is the reference's own term: the two are one composition of the same operations on the
  same arguments. A coefficient column at row `r` is the coefficient array at (k, r).
-/
import proofs.«134779_j17703855194471_1_alg».proof.Proof.KernelValue
import proofs.«134779_j17703855194471_1_alg».proof.Proof.Gen.ReferenceIdeal.Read
import Idealize.ShloMosaic.Lib.StableHlo.Run

noncomputable section

namespace Cert.Cheb.Bridge

open Cert.KernelIdeal Cert.KernelIdeal.Gen Idealize.ShloMosaic Idealize.ShloMosaic.TcCoe Idealize.SL.Sem
open Idealize.ShloMosaic.StableHlo Idealize.ShloMosaic.ValueIdx Cert.Cheb.KernelValue

variable (m : (ℓ : Loc nD τ sig) → Buf (Elt Ideal) ℓ)

/-! ## The arguments as launched, at their literal types -/

abbrev arg0 (c : Dev nD) : FVec Ideal S100000x128 .f32 := m ((c : Thread nD τ).loc main_arg0)
abbrev arg1 (c : Dev nD) : FVec Ideal S4x100000 .f32 := m ((c : Thread nD τ).loc main_arg1)
abbrev arg2 (c : Dev nD) : FVec Ideal S4x128x128 .f32 := m ((c : Thread nD τ).loc main_arg2)
abbrev arg3 (c : Dev nD) : FVec Ideal S128 .f32 := m ((c : Thread nD τ).loc main_arg3)
abbrev arg4 (c : Dev nD) : FVec Ideal S1600000 .f32 := m ((c : Thread nD τ).loc main_arg4)
abbrev arg5 (c : Dev nD) : IVec S1600000 32 := m ((c : Thread nD τ).loc main_arg5)
abbrev arg6 (c : Dev nD) : IVec S1600000 32 := m ((c : Thread nD τ).loc main_arg6)

/-- The input node array, the weights and the bias reach the region as launched. -/
theorem node0_eq (c : Dev nD) : node0 m c = arg0 m c := V_main_arg0 m c
theorem wts_eq (c : Dev nD) : wts m c = arg2 m c := V_main_arg2 m c
theorem bias_eq (c : Dev nD) : bias m c = arg3 m c := V_main_arg3 m c

/-! ## The propagated node arrays are the reference's -/

set_option maxHeartbeats 4000000 in
theorem node1_eq (c : Dev nD) :
    node1 m c = Cert.ReferenceIdeal.Read.val_main_v20 (F := Ideal) (arg0 m c) (arg4 m c) (arg5 m c) (arg6 m c) := by
  show V m c main_v12 = _
  dsimp only [V, hostOps0]
  after_results_simp
  rfl

set_option maxHeartbeats 8000000 in
theorem node2_eq (c : Dev nD) :
    node2 m c = Cert.ReferenceIdeal.Read.val_main_v45 (F := Ideal) (arg0 m c) (arg4 m c) (arg5 m c) (arg6 m c) := by
  show V m c main_v28 = _
  dsimp only [V, hostOps0]
  after_results_simp
  rfl

set_option maxHeartbeats 16000000 in
theorem node3_eq (c : Dev nD) :
    node3 m c = Cert.ReferenceIdeal.Read.val_main_v70 (F := Ideal) (arg0 m c) (arg4 m c) (arg5 m c) (arg6 m c) := by
  show V m c main_v44 = _
  dsimp only [V, hostOps0]
  after_results_simp
  rfl

/-! ## The coefficient columns -/

/-- Coefficient column 0 at row `r` is the coefficient array at (0, r). -/
theorem col0_eq (c : Dev nD) (r : Fin 100000) : col0 m c (ix2 r 0) = arg1 m c (ix2 0 r) := by
  show V m c main_v47 (ix2 r 0) = _
  dsimp only [V, hostOps0]
  after_results_simp
  refine (shapeCast_apply (s := S100000) (t := S100000x1) _ _ (ix2 r 0) (ix1 r) ?_).trans ?_
  · rw [Shape.rowMajor_val_two, Shape.rowMajor_val_one]; show r.val = r.val * 1 + 0; omega
  refine (shapeCast_apply (s := S1x100000) (t := S100000) _ _ (ix1 r) (ix2 0 r) ?_).trans ?_
  · rw [Shape.rowMajor_val_two, Shape.rowMajor_val_one]; show 0 * 100000 + r.val = r.val; omega
  exact extractStridedSlice_apply _ _ _ (ix2 0 r) (ix2 0 r) (fun a => by
    match a with
    | ⟨0, _⟩ => rfl
    | ⟨1, _⟩ => show r.val = 0 + r.val; omega)

/-- Coefficient column 1 at row `r` is the coefficient array at (1, r). -/
theorem col1_eq (c : Dev nD) (r : Fin 100000) : col1 m c (ix2 r 0) = arg1 m c (ix2 1 r) := by
  show V m c main_v50 (ix2 r 0) = _
  dsimp only [V, hostOps0]
  after_results_simp
  refine (shapeCast_apply (s := S100000) (t := S100000x1) _ _ (ix2 r 0) (ix1 r) ?_).trans ?_
  · rw [Shape.rowMajor_val_two, Shape.rowMajor_val_one]; show r.val = r.val * 1 + 0; omega
  refine (shapeCast_apply (s := S1x100000) (t := S100000) _ _ (ix1 r) (ix2 0 r) ?_).trans ?_
  · rw [Shape.rowMajor_val_two, Shape.rowMajor_val_one]; show 0 * 100000 + r.val = r.val; omega
  exact extractStridedSlice_apply _ _ _ (ix2 0 r) (ix2 1 r) (fun a => by
    match a with
    | ⟨0, _⟩ => rfl
    | ⟨1, _⟩ => show r.val = 0 + r.val; omega)

/-- Coefficient column 2 at row `r` is the coefficient array at (2, r). -/
theorem col2_eq (c : Dev nD) (r : Fin 100000) : col2 m c (ix2 r 0) = arg1 m c (ix2 2 r) := by
  show V m c main_v53 (ix2 r 0) = _
  dsimp only [V, hostOps0]
  after_results_simp
  refine (shapeCast_apply (s := S100000) (t := S100000x1) _ _ (ix2 r 0) (ix1 r) ?_).trans ?_
  · rw [Shape.rowMajor_val_two, Shape.rowMajor_val_one]; show r.val = r.val * 1 + 0; omega
  refine (shapeCast_apply (s := S1x100000) (t := S100000) _ _ (ix1 r) (ix2 0 r) ?_).trans ?_
  · rw [Shape.rowMajor_val_two, Shape.rowMajor_val_one]; show 0 * 100000 + r.val = r.val; omega
  exact extractStridedSlice_apply _ _ _ (ix2 0 r) (ix2 2 r) (fun a => by
    match a with
    | ⟨0, _⟩ => rfl
    | ⟨1, _⟩ => show r.val = 0 + r.val; omega)

/-- Coefficient column 3 at row `r` is the coefficient array at (3, r). -/
theorem col3_eq (c : Dev nD) (r : Fin 100000) : col3 m c (ix2 r 0) = arg1 m c (ix2 3 r) := by
  show V m c main_v56 (ix2 r 0) = _
  dsimp only [V, hostOps0]
  after_results_simp
  refine (shapeCast_apply (s := S100000) (t := S100000x1) _ _ (ix2 r 0) (ix1 r) ?_).trans ?_
  · rw [Shape.rowMajor_val_two, Shape.rowMajor_val_one]; show r.val = r.val * 1 + 0; omega
  refine (shapeCast_apply (s := S1x100000) (t := S100000) _ _ (ix1 r) (ix2 0 r) ?_).trans ?_
  · rw [Shape.rowMajor_val_two, Shape.rowMajor_val_one]; show 0 * 100000 + r.val = r.val; omega
  exact extractStridedSlice_apply _ _ _ (ix2 0 r) (ix2 3 r) (fun a => by
    match a with
    | ⟨0, _⟩ => rfl
    | ⟨1, _⟩ => show r.val = 0 + r.val; omega)

/-! ## The kernel's result is `combine` of the same arrays the reference combines -/

theorem result_eq (c : Dev nD) :
    result m c = combine (arg0 m c)
      (Cert.ReferenceIdeal.Read.val_main_v20 (F := Ideal) (arg0 m c) (arg4 m c) (arg5 m c) (arg6 m c))
      (Cert.ReferenceIdeal.Read.val_main_v45 (F := Ideal) (arg0 m c) (arg4 m c) (arg5 m c) (arg6 m c))
      (Cert.ReferenceIdeal.Read.val_main_v70 (F := Ideal) (arg0 m c) (arg4 m c) (arg5 m c) (arg6 m c))
      (arg1 m c) (arg2 m c) (arg3 m c) := by
  funext i
  obtain ⟨r, q, rfl⟩ : ∃ (r : Fin 100000) (q : Fin 128), i = ix2 r q := ⟨i 0, i 1, eq_ix2 i⟩
  rw [result_apply, combine_apply, node0_eq, node1_eq, node2_eq, node3_eq, wts_eq, bias_eq]
  exact kernelAt_eq _ _ _ _ _ _ _ _ (arg1 m c) _ _ (col0_eq m c) (col1_eq m c) (col2_eq m c) (col3_eq m c) r q

end Cert.Cheb.Bridge

end
-- ==== Proof.lean ====
/-
  The certificate: a layer that combines four node arrays — the input features and three arrays propagated along the
  graph's edges — each scaled row by row by its coefficient, multiplied by its weight matrix and summed, plus a bias.

  The kernel computes the three propagated arrays on the host exactly as the reference does (gather by source index,
  scale by the edge weight, scatter-add by destination index, then the two-term recurrence), cuts the coefficient array
  into columns, and does the scaling, the four products and the sums in one pipelined region over 20 blocks of 5000
  rows. At the ideal values a change of float format is the identity and a product into a zero accumulator is the plain
  sum over the contracted feature, so the kernel's array is the reference's up to the order of the two factors of a
  scaled entry and a leading zero: commutativity of the product and neutrality of zero, which hold for all extended
  reals. The precondition (finite inputs) is therefore never opened.

  Frames: the two kernel programs' frames are the generated ones; the reference's is its generated run with the result
  dropped. The idealization rewrote nothing, so its conjunct is `True`.
-/
import proofs.«134779_j17703855194471_1_alg».proof.Defs
import proofs.«134779_j17703855194471_1_alg».proof.Proof.Gen.Kernel
import proofs.«134779_j17703855194471_1_alg».proof.Proof.Gen.Kernel.Skeleton
import proofs.«134779_j17703855194471_1_alg».proof.Proof.Gen.Kernel.Launch
import proofs.«134779_j17703855194471_1_alg».proof.Proof.Gen.Kernel.Points
import proofs.«134779_j17703855194471_1_alg».proof.Proof.Gen.Kernel.Frame
import proofs.«134779_j17703855194471_1_alg».proof.Proof.Gen.KernelIdeal
import proofs.«134779_j17703855194471_1_alg».proof.Proof.Gen.KernelIdeal.Skeleton
import proofs.«134779_j17703855194471_1_alg».proof.Proof.Gen.KernelIdeal.Launch
import proofs.«134779_j17703855194471_1_alg».proof.Proof.Gen.KernelIdeal.Points
import proofs.«134779_j17703855194471_1_alg».proof.Proof.Gen.KernelIdeal.Frame
import proofs.«134779_j17703855194471_1_alg».proof.Proof.Gen.ReferenceIdeal
import proofs.«134779_j17703855194471_1_alg».proof.Proof.Gen.Pre_finite_inputs
import proofs.«134779_j17703855194471_1_alg».proof.Proof.Gen.KernelIdeal.Value
import proofs.«134779_j17703855194471_1_alg».proof.Proof.Gen.ReferenceIdeal.Run
import proofs.«134779_j17703855194471_1_alg».proof.Proof.Gen.ReferenceIdeal.Read
import proofs.«134779_j17703855194471_1_alg».proof.Proof.KernelValue
import proofs.«134779_j17703855194471_1_alg».proof.Proof.RefValue
import proofs.«134779_j17703855194471_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with the result array at `combine` of the input node array, the three propagated arrays, the
    coefficients, the weights and the bias: the kernel's by its blocks (`KernelValue.run`, `Bridge.result_eq`), the
    reference's by its stages (`RefValue.result_eq`). -/
theorem algebraic : Cert.algebraic_KernelIdeal_ReferenceIdeal := by
  intro m ρ m' ρ' _ hagree
  refine ⟨fun c => Cert.Cheb.KernelValue.result m c, Cert.Cheb.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v82_eq, (hagree c).1, (hagree c).2.1, (hagree c).2.2.1, (hagree c).2.2.2.1,
    (hagree c).2.2.2.2.1, (hagree c).2.2.2.2.2.1, (hagree c).2.2.2.2.2.2, Cert.Cheb.RefValue.result_eq]
  exact (Cert.Cheb.Bridge.result_eq m c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
